-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S30000x256 : Shape := ⟨2, ![30000, 256]⟩
abbrev S256x256 : Shape := ⟨2, ![256, 256]⟩
abbrev S256 : Shape := ⟨1, ![256]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S30000x256 : S_.BroadcastsInDim S30000x256 (![] : Fin 0 → Fin S30000x256.rank)
  reducesTo_S30000x256_S_d0_1 : S30000x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S4096 : S_.BroadcastsInDim S4096 (![] : Fin 0 → Fin S4096.rank)
  reducesTo_S4096_S_d0 : S4096.ReducesTo [0] S_

variable [Facts]

def fn_part2 {F : FTy → Type} [FloatOps F] (main_v28 : IVec S_ 1) (main_v33 : IVec S4096 1) : IVec S_ 1 :=
  let main_c_12 : IVec S_ 1 := constantI S_ 1 1#1
  let main_v34 : IVec S_ 1 := (fun x v => Host.reduce IntOp.andi x v reducesTo_S4096_S_d0 h_S_) main_v33 main_c_12
  let main_v35 : IVec S_ 1 := andi main_v28 main_v34
  main_v35

def fn_part1 {F : FTy → Type} [FloatOps F] (main_arg4 : FVec F S256 .f32) (main_arg5 : FVec F S256 .f32) (main_arg6 : IVec S4096 32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_c_10 : IVec S_ 32 := constantI S_ 32 4294937296#32
  let main_v29 : IVec S4096 32 := broadcastInDim S4096 ![] bcast_S_S4096 main_c_10
  let main_v30 : IVec S4096 1 := cmpi .sge main_arg6 main_v29
  let main_c_11 : IVec S_ 32 := constantI S_ 32 30000#32
  let main_v31 : IVec S4096 32 := broadcastInDim S4096 ![] bcast_S_S4096 main_c_11
  let main_v32 : IVec S4096 1 := cmpi .slt main_arg6 main_v31
  let main_v33 : IVec S4096 1 := andi main_v30 main_v32
  fn_part2 (F := F) main_v28 main_v33

def fn {F : FTy → Type} [FloatOps F] (main_arg0 : FVec F S16384x4096 .f32) (main_arg1 : FVec F S30000x256 .f32) (main_arg2 : FVec F S256x256 .f32) (main_arg3 : FVec F S256 .f32) (main_arg4 : FVec F S256 .f32) (main_arg5 : FVec F S256 .f32) (main_arg6 : IVec S4096 32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S30000x256 .f32 := Host.absf main_arg1
  let main_cst_0 : FVec F S_ .f32 := constant S_ .f32 0x7F800000#32
  let main_v5 : FVec F S30000x256 .f32 := broadcastInDim S30000x256 ![] bcast_S_S30000x256 main_cst_0
  let main_v6 : IVec S30000x256 1 := cmpf .olt main_v4 main_v5
  let main_c_1 : IVec S_ 1 := constantI S_ 1 1#1
  let main_v7 : IVec S_ 1 := (fun x v => Host.reduce IntOp.andi x v reducesTo_S30000x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_v13 main_v16
-- ==== Kernel.lean ====
abbrev S16384x4096 : Shape := ⟨2, ![16384, 4096]⟩
abbrev S30000x256 : Shape := ⟨2, ![30000, 256]⟩
abbrev S256x256 : Shape := ⟨2, ![256, 256]⟩
abbrev S256 : Shape := ⟨1, ![256]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x256 : Shape := ⟨2, ![4096, 256]⟩
abbrev S1x256 : Shape := ⟨2, ![1, 256]⟩
abbrev S8x256 : Shape := ⟨2, ![8, 256]⟩
abbrev S24x256 : Shape := ⟨2, ![24, 256]⟩
abbrev S16384x256 : Shape := ⟨2, ![16384, 256]⟩
abbrev S512x4096 : Shape := ⟨2, ![512, 4096]⟩
abbrev S512x256 : Shape := ⟨2, ![512, 256]⟩
abbrev S512x1024 : Shape := ⟨2, ![512, 1024]⟩
abbrev S1024x256 : Shape := ⟨2, ![1024, 256]⟩
abbrev S512 : Shape := ⟨1, ![512]⟩
abbrev S512x1 : Shape := ⟨2, ![512, 1]⟩

abbrev nBuf : Space → Nat
  | .hbm => 40
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S30000x256, .f32⟩
  | .hbm, ⟨2, _⟩ => ⟨S256x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S4096, .i32⟩
  | .hbm, ⟨7, _⟩ => ⟨S_, .i32⟩
  | .hbm, ⟨8, _⟩ => ⟨S4096, .i32⟩
  | .hbm, ⟨9, _⟩ => ⟨S4096, .i1⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S4096, .i32⟩
  | .hbm, ⟨14, _⟩ => ⟨S4096x1, .i32⟩
  | .hbm, ⟨15, _⟩ => ⟨S1, .i32⟩
  | .hbm, ⟨16, _⟩ => ⟨S_, .i32⟩
  | .hbm, ⟨17, _⟩ => ⟨S4096x1, .i32⟩
  | .hbm, ⟨18, _⟩ => ⟨S4096x1, .i1⟩
  | .hbm, ⟨19, _⟩ => ⟨S1x1, .i32⟩
  | .hbm, ⟨20, _⟩ => ⟨S4096x1, .i32⟩
  | .hbm, ⟨21, _⟩ => ⟨S4096x1, .i1⟩
  | .hbm, ⟨22, _⟩ => ⟨S4096x1, .i1⟩
  | .hbm, ⟨23, _⟩ => ⟨S_, .i1⟩
  | .hbm, ⟨24, _⟩ => ⟨S4096, .i1⟩
  | .hbm, ⟨25, _⟩ => ⟨S4096x256, .f32⟩
  | .hbm, ⟨26, _⟩ => ⟨S4096x256, .i1⟩
  | .hbm, ⟨27, _⟩ => ⟨S_, .f32⟩
  | .hbm, ⟨28, _⟩ => ⟨S4096x256, .f32⟩
  | .hbm, ⟨29, _⟩ => ⟨S4096x256, .f32⟩
  | .hbm, ⟨30, _⟩ => ⟨S4096x256, .bf16⟩
  | .hbm, ⟨31, _⟩ => ⟨S256x256, .bf16⟩
  | .hbm, ⟨32, _⟩ => ⟨S1x256, .f32⟩
  | .hbm, ⟨33, _⟩ => ⟨S8x256, .f32⟩
  | .hbm, ⟨34, _⟩ => ⟨S1x256, .f32⟩
  | .hbm, ⟨35, _⟩ => ⟨S8x256, .f32⟩
  | .hbm, ⟨36, _⟩ => ⟨S1x256, .f32⟩
  | .hbm, ⟨37, _⟩ => ⟨S8x256, .f32⟩
  | .hbm, ⟨38, _⟩ => ⟨S24x256, .f32⟩
  | .hbm, ⟨39, _⟩ => ⟨S16384x256, .f32⟩
  | .local _ .vmem, ⟨0, _⟩ => ⟨S512x4096, .f32⟩
  | .local _ .vmem, ⟨1, _⟩ => ⟨S512x4096, .f32⟩
  | .local _ .vmem, ⟨2, _⟩ => ⟨S4096x256, .bf16⟩
  | .local _ .vmem, ⟨3, _⟩ => ⟨S256x256, .bf16⟩
  | .local _ .vmem, ⟨4, _⟩ => ⟨S24x256, .f32⟩
  | .local _ .vmem, ⟨5, _⟩ => ⟨S512x256, .f32⟩
  | .local _ .vmem, ⟨6, _⟩ => ⟨S512x256, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c1024_i32 : BitVec 32 := 1024#32
  let v1 : BitVec 32 := Scalar.muli c0_i32 c1024_i32
  v1
def k0_off1 (c0_i32 : BitVec 32) : Fin 2 → Nat :=
  let c0 : Index := 0#32
  let c1024_i32 : BitVec 32 := 1024#32
  let v1 : BitVec 32 := Scalar.muli c0_i32 c1024_i32
  let v2 : BitVec 32 := v1
  let v3 : Index := Scalar.indexCast v2
  ![0, v3.toNat]
def k0_off2 (c0_i32 : BitVec 32) : Fin 2 → Nat :=
  let c1024_i32 : BitVec 32 := 1024#32
  let v1 : BitVec 32 := Scalar.muli c0_i32 c1024_i32
  let v2 : BitVec 32 := v1
  let v6 : Index := Scalar.indexCast v2
  let c0_0 : Index := 0#32
  ![v6.toNat, 0]
def k0_mult2 : BitVec 32 :=
  let c1_i32 : BitVec 32 := 1#32
  let c1024_i32_2 : BitVec 32 := 1024#32
  let v11 : BitVec 32 := Scalar.muli c1_i32 c1024_i32_2
  v11
def k0_mult3 : BitVec 32 :=
  let c2_i32 : BitVec 32 := 2#32
  let c1024_i32_6 : BitVec 32 := 1024#32
  let v21 : BitVec 32 := Scalar.muli c2_i32 c1024_i32_6
  v21
def k0_mult4 : BitVec 32 :=
  let c3_i32 : BitVec 32 := 3#32
  let c1024_i32_10 : BitVec 32 := 1024#32
  let v31 : BitVec 32 := Scalar.muli c3_i32 c1024_i32_10
  v31
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S24x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x256_0 : S4096.BroadcastsInDim S4096x256 (![0] : Fin 1 → Fin S4096x256.rank)
  bcast_S_S4096x256 : S_.BroadcastsInDim S4096x256 (![] : Fin 0 → Fin S4096x256.rank)
  bitsLt_bf16_f32 : FTy.bits .bf16 < FTy.bits .f32
  shapeCasts_S256_S1x256 : S256.ShapeCasts S1x256
  bcast_S1x256_S8x256_0_1 : S1x256.BroadcastsInDim S8x256 (![0, 1] : Fin 2 → Fin S8x256.rank)
  concatenates_S8x256_S8x256_S8x256_S24x256_d0 : Shape.Concatenates [S8x256, S8x256, S8x256] S24x256 0
  h_S512x1024 : 0 < S512x1024.numel
  h_S1024x256 : 0 < S1024x256.numel
  shapeCasts_S1024x256_S1024x256 : S1024x256.ShapeCasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S24x256_S1x256_0_0 : ∀ a, (![0, 0] : Fin 2 → Nat) a + S1x256.size a ≤ S24x256.size a
  h_S1x256 : 0 < S1x256.numel
  shapeCasts_S1x256_S1x256 : S1x256.ShapeCasts S1x256
  inb_S24x256_S1x256_8_0 : ∀ a, (![8, 0] : Fin 2 → Nat) a + S1x256.size a ≤ S24x256.size a
  inb_S24x256_S1x256_16_0 : ∀ a, (![16, 0] : Fin 2 → Nat) a + S1x256.size a ≤ S24x256.size a
  broadcasts_S1x256_S512x256 : S1x256.Broadcasts S512x256
  reduces_S512x256_S512 : S512x256.Reduces [1] S512
  shapeCasts_S512_S512x1 : S512.ShapeCasts S512x1
  broadcasts_S512x1_S512x256 : S512x1.Broadcasts S512x256
  inb_S512x256_S512x256_0_0 : ∀ a, (![0, 0] : Fin 2 → Nat) a + S512x256.size a ≤ S512x256.size a
  h_S512x256 : 0 < S512x256.numel
  gather_S30000x256_S4096x1_S4096x256_1_0_n_n_0_1_1256_wf : GatherDims.WF S30000x256 S4096x1 S4096x256 [1] [0] [] [0] [] 1 ![1, 256]
  dot_S512x1024_S1024x256_S512x256_1_0_0_1_n_n_wf : DotDims.WF S512x1024 S1024x256 S512x256 [1] [0] [0] [1] [] []
  dot_S512x256_S256x256_S512x256_1_0_0_1_n_n_wf : DotDims.WF S512x256 S256x256 S512x256 [1] [0] [0] [1] [] []
  hrank0 : 0 < grid0.rank
  k0_mult1_dvd : 1024 ∣ k0_mult1.toNat
  k0_off1_inb : ∀ (r : Fin 4), ∀ a, (k0_off1 (BitVec.ofNat 32 r.val)) a + S512x1024.size a ≤ S512x4096.size a
  k0_off2_inb : ∀ (r : Fin 4), ∀ a, (k0_off2 (BitVec.ofNat 32 r.val)) a + S1024x256.size a ≤ S4096x256.size a
  k0_mult2_dvd : 1024 ∣ k0_mult2.toNat
  k0_mult3_dvd : 1024 ∣ k0_mult3.toNat
  k0_mult4_dvd : 1024 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .bf16 = 32 ∨ (Rect.block (s := S4096x256) S4096x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S24x256.size a ≤ S24x256.size a
  hwx0_3 : ∀ i : grid0.Coords, EltTy.bits .f32 = 32 ∨ (Rect.block (s := S24x256) S24x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S16384x256.size a
  hwx0_4 : ∀ i : grid0.Coords, EltTy.bits .f32 = 32 ∨ (Rect.block (s := S16384x256) S512x256.size (cc0_transform_4 i) (hinb0_4 i)).WholeWords (EltTy.packing .f32)

variable [Facts₀]

def gather_S30000x256_S4096x1_S4096x256_1_0_n_n_0_1_1256 : GatherDims S30000x256 S4096x1 S4096x256 where
  offsetDims := [1]
  collapsedSliceDims := [0]
  operandBatchingDims := []
  startIndicesBatchingDims := []
  startIndexMap := [0]
  indexVectorDim := 1
  sliceSizes := ![1, 256]
  wf := gather_S30000x256_S4096x1_S4096x256_1_0_n_n_0_1_1256_wf
def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S24x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S30000x256 : Shape := ⟨2, ![30000, 256]⟩
abbrev S256x256 : Shape := ⟨2, ![256, 256]⟩
abbrev S256 : Shape := ⟨1, ![256]⟩
abbrev S4096 : Shape := ⟨1, ![4096]⟩
abbrev S_ : Shape := ⟨0, ![]⟩
abbrev S4096x1 : Shape := ⟨2, ![4096, 1]⟩
abbrev S4096x256 : Shape := ⟨2, ![4096, 256]⟩
abbrev S16384x256 : Shape := ⟨2, ![16384, 256]⟩
abbrev S1x256 : Shape := ⟨2, ![1, 256]⟩
abbrev S16384 : Shape := ⟨1, ![16384]⟩
abbrev S16384x1 : Shape := ⟨2, ![16384, 1]⟩

abbrev nBuf : Space → Nat
  | .hbm => 53
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S30000x256, .f32⟩
  | .hbm, ⟨2, _⟩ => ⟨S256x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S4096, .i32⟩
  | .hbm, ⟨7, _⟩ => ⟨S_, .i32⟩
  | .hbm, ⟨8, _⟩ => ⟨S4096, .i32⟩
  | .hbm, ⟨9, _⟩ => ⟨S4096, .i1⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S4096, .i32⟩
  | .hbm, ⟨14, _⟩ => ⟨S4096x1, .i32⟩
  | .hbm, ⟨15, _⟩ => ⟨S4096x256, .f32⟩
  | .hbm, ⟨16, _⟩ => ⟨S16384x256, .f32⟩
  | .hbm, ⟨17, _⟩ => ⟨S16384x256, .f32⟩
  | .hbm, ⟨18, _⟩ => ⟨S1x256, .f32⟩
  | .hbm, ⟨19, _⟩ => ⟨S16384x256, .f32⟩
  | .hbm, ⟨20, _⟩ => ⟨S16384x256, .f32⟩
  | .hbm, ⟨21, _⟩ => ⟨S_, .f32⟩
  | .hbm, ⟨22, _⟩ => ⟨S16384x256, .f32⟩
  | .hbm, ⟨23, _⟩ => ⟨S16384x256, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x256, .f32⟩
  | .hbm, ⟨31, _⟩ => ⟨S16384x256, .f32⟩
  | .hbm, ⟨32, _⟩ => ⟨S16384x256, .f32⟩
  | .hbm, ⟨33, _⟩ => ⟨S_, .f32⟩
  | .hbm, ⟨34, _⟩ => ⟨S16384, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x256, .f32⟩
  | .hbm, ⟨40, _⟩ => ⟨S16384x256, .f32⟩
  | .hbm, ⟨41, _⟩ => ⟨S1x256, .f32⟩
  | .hbm, ⟨42, _⟩ => ⟨S16384x256, .f32⟩
  | .hbm, ⟨43, _⟩ => ⟨S16384x256, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384x1, .f32⟩
  | .hbm, ⟨48, _⟩ => ⟨S16384x256, .f32⟩
  | .hbm, ⟨49, _⟩ => ⟨S16384x256, .f32⟩
  | .hbm, ⟨50, _⟩ => ⟨S1x256, .f32⟩
  | .hbm, ⟨51, _⟩ => ⟨S16384x256, .f32⟩
  | .hbm, ⟨52, _⟩ => ⟨S16384x256, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call0_cst : Ref sig .tc := ⟨.hbm, 21, rfl⟩
abbrev main_call0_v0 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  reducesTo_S16384x256_S16384_d1 : S16384x256.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x256_0_1 : S16384x1.BroadcastsInDim S16384x256 (![0, 1] : Fin 2 → Fin S16384x256.rank)
  gather_S30000x256_S4096x1_S4096x256_1_0_n_n_0_1_1256_wf : GatherDims.WF S30000x256 S4096x1 S4096x256 [1] [0] [] [0] [] 1 ![1, 256]
  dot_S16384x4096_S4096x256_S16384x256_1_0_0_1_n_n_wf : DotDims.WF S16384x4096 S4096x256 S16384x256 [1] [0] [0] [1] [] []
  dot_S16384x256_S256x256_S16384x256_1_0_0_1_n_n_wf : DotDims.WF S16384x256 S256x256 S16384x256 [1] [0] [0] [1] [] []

variable [Facts₀]

def gather_S30000x256_S4096x1_S4096x256_1_0_n_n_0_1_1256 : GatherDims S30000x256 S4096x1 S4096x256 where
  offsetDims := [1]
  collapsedSliceDims := [0]
  operandBatchingDims := []
  startIndicesBatchingDims := []
  startIndexMap := [0]
  indexVectorDim := 1
  sliceSizes := ![1, 256]
  wf := gather_S30000x256_S4096x1_S4096x256_1_0_n_n_0_1_1256_wf
def dot_S16384x4096_S4096x256_S16384x256_1_0_0_1_n_n : DotDims S16384x4096 S4096x256 S16384x256 where
  lhsContracting := [1]
  rhsContracting := [0]
  lhsNonContracting := [0]
  rhsNonContracting := [1]
  lhsBatch := []
  rhsBatch := []
  wf := dot_S16384x4096_S4096x256_S16384x256_1_0_0_1_n_n_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf

class Facts : Prop extends Facts₀ where

variable [Facts]
-- ==== Proof.FrameKernel.lean ====
/-
  The frame of the program: it runs to the end, faults nowhere, and leaves its seven argument arrays as it found them.

  The program is two stretches of host operations — the gather of the embedding rows with its range mask, then the
  casts of the table and of the weight and the packing of bias, scale and shift into one 24-row array (a
  concatenation of three 8-row broadcasts) — followed by ONE grid of 32 points. At point t the body is handed the
  512 x 4096 block t of x, the whole 4096 x 256 table, the whole 256 x 256 weight and the 24 x 256 packed rows, reads
  them through fixed rectangles (four 1024-wide column chunks of x against four 1024-row chunks of the table, the
  weight whole, rows 0, 8 and 16 of the packed array), and writes the whole 512 x 256 output block t in one store.
  So every input buffer is left as found, and the output buffer ends at one function (`out0_4`) of the four input
  blocks; the arrays the grid reads are what the host operations left (`V`), and none of those operations writes an
  argument.
-/
import proofs.«407071_j83296595738829_3_alg».proof.Proof.Gen.Kernel.Launch
import proofs.«407071_j83296595738829_3_alg».proof.Proof.Gen.Kernel.Skeleton
import proofs.«407071_j83296595738829_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the grid -/

/-- A core's buffers when the grid is entered: the starting memory after the two stretches of host operations. -/
abbrev V (c : Dev nD) (b : Ref sig .tc) : Buf (Elt F) ((c : Thread nD τ).loc b) :=
  StableHlo.after (List.flatten [hostOps0, hostOps0_1]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

/-- The program up to its grid: the two stretches of host operations, then the grid. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- No host operation before the region writes `main_arg0`: the region finds it as the program was started. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg1`: the region finds it as the program was started. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg2`: the region finds it as the program was started. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg3`: the region finds it as the program was started. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg4`: the region finds it as the program was started. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg5`: the region finds it as the program was started. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg6`: the region finds it as the program was started. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The blocks the grid hands the body -/

/-- Window `w`'s block at point `t`, read off its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, fetched there or not (an input the body leaves
    in place keeps its block while its block index does not move). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The argument arrays at the end -/

/-- From a run that ends with every array the grid touches at what the grid's bookkeeping says, and every other
    buffer as the grid found it: the arguments end as they began. x is read through window 0 and never written;
    the other six are touched by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The rectangles the body reads and writes -/

/-- Column chunk `n` of the 512 x 4096 block of x: columns 1024 n … 1024 n + 1023. -/
abbrev rX0 : Rect S512x4096 := Rect.unit (s := S512x4096) (k0_off1 0#32) S512x1024.size (k0_off1_inb 0)
abbrev rX1 : Rect S512x4096 := Rect.unit (s := S512x4096) (k0_off1 1#32) S512x1024.size (k0_off1_inb 1)
abbrev rX2 : Rect S512x4096 := Rect.unit (s := S512x4096) (k0_off1 2#32) S512x1024.size (k0_off1_inb 2)
abbrev rX3 : Rect S512x4096 := Rect.unit (s := S512x4096) (k0_off1 3#32) S512x1024.size (k0_off1_inb 3)
/-- Row chunk `n` of the 4096 x 256 table: rows 1024 n … 1024 n + 1023. -/
abbrev rT0 : Rect S4096x256 := Rect.unit (s := S4096x256) (k0_off2 0#32) S1024x256.size (k0_off2_inb 0)
abbrev rT1 : Rect S4096x256 := Rect.unit (s := S4096x256) (k0_off2 1#32) S1024x256.size (k0_off2_inb 1)
abbrev rT2 : Rect S4096x256 := Rect.unit (s := S4096x256) (k0_off2 2#32) S1024x256.size (k0_off2_inb 2)
abbrev rT3 : Rect S4096x256 := Rect.unit (s := S4096x256) (k0_off2 3#32) S1024x256.size (k0_off2_inb 3)
/-- The weight, whole. -/
abbrev rW : Rect S256x256 := Rect.unit (s := S256x256) ![0, 0] S256x256.size inb_S256x256_S256x256_0_0
/-- Rows 0, 8 and 16 of the packed 24 x 256 array: bias, scale, shift. -/
abbrev rP0 : Rect S24x256 := Rect.unit (s := S24x256) ![0, 0] S1x256.size inb_S24x256_S1x256_0_0
abbrev rP8 : Rect S24x256 := Rect.unit (s := S24x256) ![8, 0] S1x256.size inb_S24x256_S1x256_8_0
abbrev rP16 : Rect S24x256 := Rect.unit (s := S24x256) ![16, 0] S1x256.size inb_S24x256_S1x256_16_0
/-- The output block, whole. -/
abbrev rO : Rect S512x256 := Rect.unit (s := S512x256) ![0, 0] S512x256.size inb_S512x256_S512x256_0_0

/-! ## What the body leaves in the output buffer -/

/-- The output buffer after the body, from the four input blocks: its one store, of the body's arithmetic on what
    the thirteen loads read. -/
def out0_4 (x0 : Vec F S512x4096 .f32) (x1 : Vec F S4096x256 .bf16) (x2 : Vec F S256x256 .bf16) (x3 : Vec F S24x256 .f32) : Vec F S512x256 .f32 :=
  View.canon [⟨rO, k0_pay1 (k0_pay2 (View.ld x0 rX0) (View.ld x1 rT0) (View.ld x0 rX1) (View.ld x1 rT1) (View.ld x0 rX2) (View.ld x1 rT2))
    (k0_pay3 (View.ld x0 rX3)) (k0_pay4 (View.ld x1 rT3)) (View.ld x2 rW) (View.ld x3 rP0) (View.ld x3 rP8) (View.ld x3 rP16)⟩]

/-- The one store covers the buffer. -/
theorem cover0_4 (p0 : Vec F S512x256 .f32) (y : S512x256.Idx) :
    ∃ pc ∈ ([⟨rO, p0⟩] : List (View.Piece (Elt F) S512x256 .f32)), y ∈ pc.1.set :=
  View.cover_of_tiled [⟨rO, p0⟩] S512x256.size (by rfl) y

/-! ## The body's triple -/

set_option maxHeartbeats 1000000 in
/-- The body on whole buffers, the four inputs' at contents `x0 … x3` and the output's at anything, runs to the end
    holding the inputs' as they were and the output's at `out0_4` of them. -/
theorem sound_kernel (c : Dev nD) (E : Set ℕ) (i : grid0.Coords)
    (arg1 : Memref sig .tc .vmem S512x4096 .f32) (harg1 : arg1.IsWhole) (arg2 : Memref sig .tc .vmem S4096x256 .bf16) (harg2 : arg2.IsWhole)
    (arg3 : Memref sig .tc .vmem S256x256 .bf16) (harg3 : arg3.IsWhole) (arg4 : Memref sig .tc .vmem S24x256 .f32) (harg4 : arg4.IsWhole)
    (arg5 : Memref sig .tc .vmem S512x256 .f32) (harg5 : arg5.IsWhole)
    (x0 : Vec F S512x4096 .f32) (x1 : Vec F S4096x256 .bf16) (x2 : Vec F S256x256 .bf16) (x3 : Vec F S24x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__omics_kernel i arg1 harg1 arg2 harg2 arg3 harg3 arg4 harg4 arg5 harg5) K := by
  simp only [cc0__omics_kernel_eq_skeleton]; unfold cc0__omics_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The grid's bookkeeping -/

/-- Per core: the arrays as the grid finds them; after the body at point `t` each input's buffer at its block and
    the output's at `out0_4` of the input blocks; nothing else of the core's touched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body at a point of the grid -/

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the rest passes
    through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program terminates, and every final state
    has each array the grid touches at what the bookkeeping computes and every other buffer as the grid found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end without a fault and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Fr

end
-- ==== Proof.FrameKernelIdeal.lean ====
/-
  The frame of the program: it runs to the end, faults nowhere, and leaves its seven argument arrays as it found them.

  The program is two stretches of host operations — the gather of the embedding rows with its range mask, then the
  casts of the table and of the weight and the packing of bias, scale and shift into one 24-row array (a
  concatenation of three 8-row broadcasts) — followed by ONE grid of 32 points. At point t the body is handed the
  512 x 4096 block t of x, the whole 4096 x 256 table, the whole 256 x 256 weight and the 24 x 256 packed rows, reads
  them through fixed rectangles (four 1024-wide column chunks of x against four 1024-row chunks of the table, the
  weight whole, rows 0, 8 and 16 of the packed array), and writes the whole 512 x 256 output block t in one store.
  So every input buffer is left as found, and the output buffer ends at one function (`out0_4`) of the four input
  blocks; the arrays the grid reads are what the host operations left (`V`), and none of those operations writes an
  argument.
-/
import proofs.«407071_j83296595738829_3_alg».proof.Proof.Gen.KernelIdeal.Launch
import proofs.«407071_j83296595738829_3_alg».proof.Proof.Gen.KernelIdeal.Skeleton
import proofs.«407071_j83296595738829_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the grid -/

/-- A core's buffers when the grid is entered: the starting memory after the two stretches of host operations. -/
abbrev V (c : Dev nD) (b : Ref sig .tc) : Buf (Elt F) ((c : Thread nD τ).loc b) :=
  StableHlo.after (List.flatten [hostOps0, hostOps0_1]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

/-- The program up to its grid: the two stretches of host operations, then the grid. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- No host operation before the region writes `main_arg0`: the region finds it as the program was started. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg1`: the region finds it as the program was started. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg2`: the region finds it as the program was started. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg3`: the region finds it as the program was started. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg4`: the region finds it as the program was started. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg5`: the region finds it as the program was started. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg6`: the region finds it as the program was started. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The blocks the grid hands the body -/

/-- Window `w`'s block at point `t`, read off its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, fetched there or not (an input the body leaves
    in place keeps its block while its block index does not move). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The argument arrays at the end -/

/-- From a run that ends with every array the grid touches at what the grid's bookkeeping says, and every other
    buffer as the grid found it: the arguments end as they began. x is read through window 0 and never written;
    the other six are touched by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The rectangles the body reads and writes -/

/-- Column chunk `n` of the 512 x 4096 block of x: columns 1024 n … 1024 n + 1023. -/
abbrev rX0 : Rect S512x4096 := Rect.unit (s := S512x4096) (k0_off1 0#32) S512x1024.size (k0_off1_inb 0)
abbrev rX1 : Rect S512x4096 := Rect.unit (s := S512x4096) (k0_off1 1#32) S512x1024.size (k0_off1_inb 1)
abbrev rX2 : Rect S512x4096 := Rect.unit (s := S512x4096) (k0_off1 2#32) S512x1024.size (k0_off1_inb 2)
abbrev rX3 : Rect S512x4096 := Rect.unit (s := S512x4096) (k0_off1 3#32) S512x1024.size (k0_off1_inb 3)
/-- Row chunk `n` of the 4096 x 256 table: rows 1024 n … 1024 n + 1023. -/
abbrev rT0 : Rect S4096x256 := Rect.unit (s := S4096x256) (k0_off2 0#32) S1024x256.size (k0_off2_inb 0)
abbrev rT1 : Rect S4096x256 := Rect.unit (s := S4096x256) (k0_off2 1#32) S1024x256.size (k0_off2_inb 1)
abbrev rT2 : Rect S4096x256 := Rect.unit (s := S4096x256) (k0_off2 2#32) S1024x256.size (k0_off2_inb 2)
abbrev rT3 : Rect S4096x256 := Rect.unit (s := S4096x256) (k0_off2 3#32) S1024x256.size (k0_off2_inb 3)
/-- The weight, whole. -/
abbrev rW : Rect S256x256 := Rect.unit (s := S256x256) ![0, 0] S256x256.size inb_S256x256_S256x256_0_0
/-- Rows 0, 8 and 16 of the packed 24 x 256 array: bias, scale, shift. -/
abbrev rP0 : Rect S24x256 := Rect.unit (s := S24x256) ![0, 0] S1x256.size inb_S24x256_S1x256_0_0
abbrev rP8 : Rect S24x256 := Rect.unit (s := S24x256) ![8, 0] S1x256.size inb_S24x256_S1x256_8_0
abbrev rP16 : Rect S24x256 := Rect.unit (s := S24x256) ![16, 0] S1x256.size inb_S24x256_S1x256_16_0
/-- The output block, whole. -/
abbrev rO : Rect S512x256 := Rect.unit (s := S512x256) ![0, 0] S512x256.size inb_S512x256_S512x256_0_0

/-! ## What the body leaves in the output buffer -/

/-- The output buffer after the body, from the four input blocks: its one store, of the body's arithmetic on what
    the thirteen loads read. -/
def out0_4 (x0 : Vec F S512x4096 .f32) (x1 : Vec F S4096x256 .bf16) (x2 : Vec F S256x256 .bf16) (x3 : Vec F S24x256 .f32) : Vec F S512x256 .f32 :=
  View.canon [⟨rO, k0_pay1 (k0_pay2 (View.ld x0 rX0) (View.ld x1 rT0) (View.ld x0 rX1) (View.ld x1 rT1) (View.ld x0 rX2) (View.ld x1 rT2))
    (k0_pay3 (View.ld x0 rX3)) (k0_pay4 (View.ld x1 rT3)) (View.ld x2 rW) (View.ld x3 rP0) (View.ld x3 rP8) (View.ld x3 rP16)⟩]

/-- The one store covers the buffer. -/
theorem cover0_4 (p0 : Vec F S512x256 .f32) (y : S512x256.Idx) :
    ∃ pc ∈ ([⟨rO, p0⟩] : List (View.Piece (Elt F) S512x256 .f32)), y ∈ pc.1.set :=
  View.cover_of_tiled [⟨rO, p0⟩] S512x256.size (by rfl) y

/-! ## The body's triple -/

set_option maxHeartbeats 1000000 in
/-- The body on whole buffers, the four inputs' at contents `x0 … x3` and the output's at anything, runs to the end
    holding the inputs' as they were and the output's at `out0_4` of them. -/
theorem sound_kernel (c : Dev nD) (E : Set ℕ) (i : grid0.Coords)
    (arg1 : Memref sig .tc .vmem S512x4096 .f32) (harg1 : arg1.IsWhole) (arg2 : Memref sig .tc .vmem S4096x256 .bf16) (harg2 : arg2.IsWhole)
    (arg3 : Memref sig .tc .vmem S256x256 .bf16) (harg3 : arg3.IsWhole) (arg4 : Memref sig .tc .vmem S24x256 .f32) (harg4 : arg4.IsWhole)
    (arg5 : Memref sig .tc .vmem S512x256 .f32) (harg5 : arg5.IsWhole)
    (x0 : Vec F S512x4096 .f32) (x1 : Vec F S4096x256 .bf16) (x2 : Vec F S256x256 .bf16) (x3 : Vec F S24x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__omics_kernel i arg1 harg1 arg2 harg2 arg3 harg3 arg4 harg4 arg5 harg5) K := by
  simp only [cc0__omics_kernel_eq_skeleton]; unfold cc0__omics_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The grid's bookkeeping -/

/-- Per core: the arrays as the grid finds them; after the body at point `t` each input's buffer at its block and
    the output's at `out0_4` of the input blocks; nothing else of the core's touched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body at a point of the grid -/

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the rest passes
    through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program terminates, and every final state
    has each array the grid touches at what the bookkeeping computes and every other buffer as the grid found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end without a fault and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Fr

end
-- ==== Proof.Spec.lean ====
/-
  The function both programs compute, written once over the extended reals.

  One cell (one row of the expression matrix) is processed independently of the others:
    * its gene-weighted sum of embedding rows,   s c = Σ_k xrow k · feat (k, c)      (4096 genes, 256 features);
    * one dense layer with bias and a rectifier, a c = max (Σ_j s j · W (j, c) + bias c) 0;
    * layer normalisation over the 256 features: with  μ = (Σ_c a c) / 256,  d c = a c − μ,
      v = (Σ_c d c · d c) / 256,  the result is  scale c · (d c · rsqrt (v + ε)) + shift c.
  The divisor 256 and ε are kept as the f32 words both programs print, so neither is ever evaluated.
  `feat` is the gathered embedding table; how it is gathered is the same text in both programs and is
  never opened here.
-/
import Idealize.ShloMosaic.PureOps.Ideal
import Idealize.ShloMosaic.Lib.ValueIdx

noncomputable section

namespace Cert.OmicsSpec

open Idealize.ShloMosaic Idealize.ShloMosaic.ValueIdx

/-- The divisor of both means: the f32 word of 256. -/
def n256 : EReal := Ideal.ofBits .f32 0x43800000#32
/-- The variance offset: the f32 word nearest 1e-5, the same word in both programs. -/
def eps : EReal := Ideal.ofBits .f32 0x3727C5AC#32

/-- A cell's gene-weighted sum of embedding rows, feature `c`. -/
def agg (xrow : Fin 4096 → EReal) (feat : (⟨2, ![4096, 256]⟩ : Shape).Idx → EReal) (c : Fin 256) : EReal :=
  ∑ k : Fin 4096, xrow k * feat (ix2 k c)

/-- The dense layer with bias, rectified. -/
def act (xrow : Fin 4096 → EReal) (feat : (⟨2, ![4096, 256]⟩ : Shape).Idx → EReal)
    (W : (⟨2, ![256, 256]⟩ : Shape).Idx → EReal) (bias : Fin 256 → EReal) (c : Fin 256) : EReal :=
  max (∑ j : Fin 256, agg xrow feat j * W (ix2 j c) + bias c) 0

/-- The mean of 256 features. -/
def mean (a : Fin 256 → EReal) : EReal := Ideal.div (∑ c : Fin 256, a c) n256

/-- Layer normalisation of the 256 activations, with scale and shift. -/
def norm (a : Fin 256 → EReal) (scale shift : Fin 256 → EReal) (c : Fin 256) : EReal :=
  scale c * ((a c - mean a) * Ideal.rsqrt (mean (fun c' => (a c' - mean a) * (a c' - mean a)) + eps)) + shift c

/-- One cell's output row. -/
def outRow (xrow : Fin 4096 → EReal) (feat : (⟨2, ![4096, 256]⟩ : Shape).Idx → EReal)
    (W : (⟨2, ![256, 256]⟩ : Shape).Idx → EReal) (bias scale shift : Fin 256 → EReal) (c : Fin 256) : EReal :=
  norm (act xrow feat W bias) scale shift c

/-- The whole result: row `b` is cell `b`'s output row. -/
def G (x : (⟨2, ![16384, 4096]⟩ : Shape).Idx → EReal) (feat : (⟨2, ![4096, 256]⟩ : Shape).Idx → EReal)
    (W : (⟨2, ![256, 256]⟩ : Shape).Idx → EReal) (bias scale shift : (⟨1, ![256]⟩ : Shape).Idx → EReal) :
    (⟨2, ![16384, 256]⟩ : Shape).Idx → EReal :=
  fun j => outRow (fun k => x (ix2 (j 0) k)) feat W (fun c => bias (ix1 c)) (fun c => scale (ix1 c))
    (fun c => shift (ix1 c)) (j 1)

theorem G_apply (x : (⟨2, ![16384, 4096]⟩ : Shape).Idx → EReal) (feat : (⟨2, ![4096, 256]⟩ : Shape).Idx → EReal)
    (W : (⟨2, ![256, 256]⟩ : Shape).Idx → EReal) (bias scale shift : (⟨1, ![256]⟩ : Shape).Idx → EReal)
    (b : Fin 16384) (c : Fin 256) :
    G x feat W bias scale shift (ix2 b c)
      = outRow (fun k => x (ix2 b k)) feat W (fun c => bias (ix1 c)) (fun c => scale (ix1 c)) (fun c => shift (ix1 c)) c :=
  rfl

end Cert.OmicsSpec

end
-- ==== Proof.PayloadAt.lean ====
/-
  The kernel body's stored value read at one index.

  The body's whole arithmetic is one pure term: four partial products of a row block of the expression
  matrix with the four row chunks of the embedding table, summed into a zero accumulator; a dense layer
  with bias and rectifier; and a layer normalisation along the 256 features.  Read at the index (p, q)
  that term is the specification's output row of the block's row p, at feature q:

    * a matrix product into a zero accumulator, read at an index, is the plain sum over the contraction;
    * the four chunk sums ((0 + Σ_{k<1024}) + Σ + Σ) + Σ are one sum over the 4096 genes;
    * a lane sum read at a row is the sum over that row; the keep-dimension column [512] → [512,1] and the
      broadcasts [512,1] → [512,256], [1,256] → [512,256] read one element of their operand;
    * what remains is the specification's text, term for term.
-/
import proofs.«407071_j83296595738829_3_alg».proof.Proof.Gen.KernelIdeal.Skeleton
import proofs.«407071_j83296595738829_3_alg».proof.Proof.Spec
import Idealize.ShloMosaic.Lib.ValueIdx
import Idealize.ShloMosaic.Lib.Pipeline.Value
import Idealize.ShloMosaic.Lib.ValueLayout
import Idealize.ShloMosaic.PureOps.Ideal.Laws
import Mathlib.Algebra.BigOperators.Fin

noncomputable section

namespace Cert.KernelIdeal.PayloadAt

open Cert.KernelIdeal Idealize.ShloMosaic Idealize.ShloMosaic.ValueIdx Idealize.SL.Sem
open Cert.KernelIdeal.Facts₀ Cert.KernelIdeal.Facts

variable [Cert.KernelIdeal.Facts]

/-! ## The two matrix products' operand indices, axis by axis -/

theorem lhs_agg_0 (i : S512x256.Idx) (q : dot_S512x1024_S1024x256_S512x256_1_0_0_1_n_n.contr.Idx) :
    (dot_S512x1024_S1024x256_S512x256_1_0_0_1_n_n.lhsIdx i q 0).val = (i 0).val := by
  unfold DotDims.lhsIdx
  rw [dif_neg (show ¬(0 : Fin S512x1024.rank) ∈ dot_S512x1024_S1024x256_S512x256_1_0_0_1_n_n.lhsBatch by decide), dif_pos (show (0 : Fin S512x1024.rank) ∈ dot_S512x1024_S1024x256_S512x256_1_0_0_1_n_n.lhsNonContracting by decide)]
  rfl
theorem lhs_agg_1 (i : S512x256.Idx) (q : dot_S512x1024_S1024x256_S512x256_1_0_0_1_n_n.contr.Idx) :
    (dot_S512x1024_S1024x256_S512x256_1_0_0_1_n_n.lhsIdx i q 1).val = (q ⟨0, by decide⟩).val :=
  dot_S512x1024_S1024x256_S512x256_1_0_0_1_n_n.lhsIdx_val_of_single rfl i q
theorem rhs_agg_0 (i : S512x256.Idx) (q : dot_S512x1024_S1024x256_S512x256_1_0_0_1_n_n.contr.Idx) :
    (dot_S512x1024_S1024x256_S512x256_1_0_0_1_n_n.rhsIdx i q 0).val = (q ⟨0, by decide⟩).val :=
  dot_S512x1024_S1024x256_S512x256_1_0_0_1_n_n.rhsIdx_val_of_single rfl i q
theorem rhs_agg_1 (i : S512x256.Idx) (q : dot_S512x1024_S1024x256_S512x256_1_0_0_1_n_n.contr.Idx) :
    (dot_S512x1024_S1024x256_S512x256_1_0_0_1_n_n.rhsIdx i q 1).val = (i 1).val := by
  unfold DotDims.rhsIdx
  rw [dif_neg (show ¬(1 : Fin S1024x256.rank) ∈ dot_S512x1024_S1024x256_S512x256_1_0_0_1_n_n.rhsBatch by decide), dif_pos (show (1 : Fin S1024x256.rank) ∈ dot_S512x1024_S1024x256_S512x256_1_0_0_1_n_n.rhsNonContracting by decide)]
  rfl

theorem lhs_dense_0 (i : S512x256.Idx) (q : dot_S512x256_S256x256_S512x256_1_0_0_1_n_n.contr.Idx) :
    (dot_S512x256_S256x256_S512x256_1_0_0_1_n_n.lhsIdx i q 0).val = (i 0).val := by
  unfold DotDims.lhsIdx
  rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
  rfl
theorem lhs_dense_1 (i : S512x256.Idx) (q : dot_S512x256_S256x256_S512x256_1_0_0_1_n_n.contr.Idx) :
    (dot_S512x256_S256x256_S512x256_1_0_0_1_n_n.lhsIdx i q 1).val = (q ⟨0, by decide⟩).val :=
  dot_S512x256_S256x256_S512x256_1_0_0_1_n_n.lhsIdx_val_of_single rfl i q
theorem rhs_dense_0 (i : S512x256.Idx) (q : dot_S512x256_S256x256_S512x256_1_0_0_1_n_n.contr.Idx) :
    (dot_S512x256_S256x256_S512x256_1_0_0_1_n_n.rhsIdx i q 0).val = (q ⟨0, by decide⟩).val :=
  dot_S512x256_S256x256_S512x256_1_0_0_1_n_n.rhsIdx_val_of_single rfl i q
theorem rhs_dense_1 (i : S512x256.Idx) (q : dot_S512x256_S256x256_S512x256_1_0_0_1_n_n.contr.Idx) :
    (dot_S512x256_S256x256_S512x256_1_0_0_1_n_n.rhsIdx i q 1).val = (i 1).val := by
  unfold DotDims.rhsIdx
  rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
  rfl

/-! ## A matrix product into the zero accumulator, read at an index -/

/-- A [512,1024] × [1024,256] product into zero, at (p, q): the sum over the 1024 contracted positions. -/
theorem matmul_agg_apply (a : FVec Ideal S512x1024 .bf16) (b : FVec Ideal S1024x256 .bf16) (p : Fin 512) (q : Fin 256) :
    matmul dot_S512x1024_S1024x256_S512x256_1_0_0_1_n_n none a b (constant (F := Ideal) S512x256 .f32 0x00000000#32) (ix2 p q)
      = ∑ k : Fin 1024, a (ix2 p k) * b (ix2 k q) := by
  simp only [matmul]
  rw [Ideal.matmul_constant_zero_apply, ← Equiv.sum_comp (contrEquiv1 dot_S512x1024_S1024x256_S512x256_1_0_0_1_n_n 1024 rfl rfl).symm]
  refine Finset.sum_congr rfl fun k _ => ?_
  have hk := contrEquiv1_symm_val dot_S512x1024_S1024x256_S512x256_1_0_0_1_n_n 1024 rfl rfl k
  have el : dot_S512x1024_S1024x256_S512x256_1_0_0_1_n_n.lhsIdx (ix2 p q) ((contrEquiv1 dot_S512x1024_S1024x256_S512x256_1_0_0_1_n_n 1024 rfl rfl).symm k) = ix2 p k := funext fun ax => Fin.ext (by
    match ax with
    | ⟨0, _⟩ => exact lhs_agg_0 _ _
    | ⟨1, _⟩ => exact (lhs_agg_1 _ _).trans hk)
  have er : dot_S512x1024_S1024x256_S512x256_1_0_0_1_n_n.rhsIdx (ix2 p q) ((contrEquiv1 dot_S512x1024_S1024x256_S512x256_1_0_0_1_n_n 1024 rfl rfl).symm k) = ix2 k q := funext fun ax => Fin.ext (by
    match ax with
    | ⟨0, _⟩ => exact (rhs_agg_0 _ _).trans hk
    | ⟨1, _⟩ => exact rhs_agg_1 _ _)
  rw [el, er]

/-- A [512,256] × [256,256] product into zero, at (p, q): the sum over the 256 contracted positions. -/
theorem matmul_dense_apply (a : FVec Ideal S512x256 .bf16) (b : FVec Ideal S256x256 .bf16) (p : Fin 512) (q : Fin 256) :
    matmul dot_S512x256_S256x256_S512x256_1_0_0_1_n_n none a b (constant (F := Ideal) S512x256 .f32 0x00000000#32) (ix2 p q)
      = ∑ j : Fin 256, a (ix2 p j) * b (ix2 j q) := by
  simp only [matmul]
  rw [Ideal.matmul_constant_zero_apply, ← Equiv.sum_comp (contrEquiv1 dot_S512x256_S256x256_S512x256_1_0_0_1_n_n 256 rfl rfl).symm]
  refine Finset.sum_congr rfl fun k _ => ?_
  have hk := contrEquiv1_symm_val dot_S512x256_S256x256_S512x256_1_0_0_1_n_n 256 rfl rfl k
  have el : dot_S512x256_S256x256_S512x256_1_0_0_1_n_n.lhsIdx (ix2 p q) ((contrEquiv1 dot_S512x256_S256x256_S512x256_1_0_0_1_n_n 256 rfl rfl).symm k) = ix2 p k := funext fun ax => Fin.ext (by
    match ax with
    | ⟨0, _⟩ => exact lhs_dense_0 _ _
    | ⟨1, _⟩ => exact (lhs_dense_1 _ _).trans hk)
  have er : dot_S512x256_S256x256_S512x256_1_0_0_1_n_n.rhsIdx (ix2 p q) ((contrEquiv1 dot_S512x256_S256x256_S512x256_1_0_0_1_n_n 256 rfl rfl).symm k) = ix2 k q := funext fun ax => Fin.ext (by
    match ax with
    | ⟨0, _⟩ => exact (rhs_dense_0 _ _).trans hk
    | ⟨1, _⟩ => exact rhs_dense_1 _ _)
  rw [el, er]

/-! ## A lane sum read at a row, and the layout operations around it -/

/-- The sum along the 256 lanes of a [512,256] block, read at row `r`: the sum over that row. -/
theorem laneSum_apply (src : FVec Ideal S512x256 .f32) (r : Fin 512) :
    multiReduction (F := Ideal) .add [1] S512 src 0x00000000#32 reduces_S512x256_S512 (.inl rfl) rfl (ix1 r)
      = ∑ c : Fin 256, src (ix2 r c) := by
  refine (Ideal.multiReduction_add_single src 0x00000000#32 reduces_S512x256_S512 (.inl rfl) rfl (ix1 r)).trans ?_
  refine Finset.sum_congr rfl fun k _ => congrArg src (funext fun ax => Fin.ext ?_)
  match ax with
  | ⟨0, _⟩ => rfl
  | ⟨1, _⟩ => rfl

/-- A [512] vector viewed as a [512,1] column reads, at (p, u), the vector at p. -/
theorem column_apply {α : Type} (x : S512.Idx → α) (h : S512.ShapeCasts S512x1) (p : Fin 512) (u : Fin 1) :
    shapeCast S512x1 x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A [512,1] column broadcast along 256 lanes reads, at (p, q), the column at row p. -/
theorem columnBroadcast_apply {α : Type} (x : S512x1.Idx → α) (h : S512x1.Broadcasts S512x256) (p : Fin 512) (q : Fin 256) :
    broadcastTo S512x256 x h (ix2 p q) = x (ix2 p (0 : Fin 1)) := by
  refine broadcastTo_apply x h (ix2 p q) (ix2 p (0 : Fin 1)) fun ax => ?_
  match ax with
  | ⟨0, _⟩ =>
    show p.val = if (512 : Nat) = 1 then 0 else p.val
    rw [if_neg (by decide)]
  | ⟨1, _⟩ =>
    show 0 = if (1 : Nat) = 1 then 0 else q.val
    rw [if_pos rfl]

/-- A [1,256] row broadcast over 512 rows reads, at (p, q), the row at q. -/
theorem rowBroadcast_apply {α : Type} (x : S1x256.Idx → α) (h : S1x256.Broadcasts S512x256) (p : Fin 512) (q : Fin 256) :
    broadcastTo S512x256 x h (ix2 p q) = x (ix2 (0 : Fin 1) q) :=
  broadcastTo_1b_ab_apply x h p q

/-! ## Four chunk sums are one sum -/

/-- A sum over 4096 positions, cut into four runs of 1024. -/
theorem sum_four_chunks (g : Fin 4096 → EReal) :
    (((0 + ∑ k : Fin 1024, g ⟨k.val, by omega⟩) + ∑ k : Fin 1024, g ⟨1024 + k.val, by omega⟩)
        + ∑ k : Fin 1024, g ⟨2048 + k.val, by omega⟩) + ∑ k : Fin 1024, g ⟨3072 + k.val, by omega⟩
      = ∑ k : Fin 4096, g k := by
  have e3 : ∑ k : Fin 4096, g k
      = ∑ k : Fin 3072, g ⟨k.val, by omega⟩ + ∑ k : Fin 1024, g ⟨3072 + k.val, by omega⟩ :=
    Fin.sum_univ_add (a := 3072) (b := 1024) g
  have e2 : ∑ k : Fin 3072, g ⟨k.val, by omega⟩
      = ∑ k : Fin 2048, g ⟨k.val, by omega⟩ + ∑ k : Fin 1024, g ⟨2048 + k.val, by omega⟩ :=
    Fin.sum_univ_add (a := 2048) (b := 1024) (fun k : Fin 3072 => g ⟨k.val, by omega⟩)
  have e1 : ∑ k : Fin 2048, g ⟨k.val, by omega⟩
      = ∑ k : Fin 1024, g ⟨k.val, by omega⟩ + ∑ k : Fin 1024, g ⟨1024 + k.val, by omega⟩ :=
    Fin.sum_univ_add (a := 1024) (b := 1024) (fun k : Fin 2048 => g ⟨k.val, by omega⟩)
  rw [e3, e2, e1, zero_add]

/-! ## The body's term in two stages: the rectified dense layer, then the normalisation -/

/-- The rectified dense layer's [512,256] block: from the three accumulated partial products `v30`, the
    last chunk's operands `v35`, `v38`, the weight `v42` and the bias row `v45`. -/
def actBlock (v30 : FVec Ideal S512x256 .f32) (v35 : FVec Ideal S512x1024 .bf16) (v38 : FVec Ideal S1024x256 .bf16)
    (v42 : Vec Ideal S256x256 .bf16) (v45 : Vec Ideal S1x256 .f32) : FVec Ideal S512x256 .f32 :=
  maximumf
    (addf
      (matmul dot_S512x256_S256x256_S512x256_1_0_0_1_n_n none
        (truncf .bf16
          (addf v30 (matmul dot_S512x1024_S1024x256_S512x256_1_0_0_1_n_n none v35 v38 (constant S512x256 .f32 0x00000000#32)))
          bitsLt_bf16_f32)
        (shapeCast S256x256 v42 shapeCasts_S256x256_S256x256 : FVec Ideal S256x256 .bf16) (constant S512x256 .f32 0x00000000#32))
      (broadcastTo S512x256 (shapeCast S1x256 v45 shapeCasts_S1x256_S1x256 : FVec Ideal S1x256 .f32) broadcasts_S1x256_S512x256))
    (broadcast S512x256 (Scalar.ofBits .f32 0x00000000#32))

/-- The row mean of a [512,256] block as a [512,1] column: lane sum, keep-dimension view, division by 256. -/
def meanColumn (x : FVec Ideal S512x256 .f32) : FVec Ideal S512x1 .f32 :=
  divf (shapeCast S512x1 (multiReduction .add [1] S512 x 0x00000000#32 reduces_S512x256_S512 (.inl rfl) rfl) shapeCasts_S512_S512x1)
    (broadcast S512x1 (Scalar.ofBits .f32 0x43800000#32))

/-- A block with its row means taken off. -/
def centred (x : FVec Ideal S512x256 .f32) : FVec Ideal S512x256 .f32 :=
  subf x (broadcastTo S512x256 (meanColumn x) broadcasts_S512x1_S512x256)

/-- The normalisation of a block's rows, with the scale row `v47` and the shift row `v49`. -/
def normBlock (x : FVec Ideal S512x256 .f32) (v47 v49 : Vec Ideal S1x256 .f32) : FVec Ideal S512x256 .f32 :=
  addf
    (mulf (broadcastTo S512x256 (shapeCast S1x256 v47 shapeCasts_S1x256_S1x256 : FVec Ideal S1x256 .f32) broadcasts_S1x256_S512x256)
      (mulf (centred x)
        (broadcastTo S512x256
          (rsqrt (addf (meanColumn (mulf (centred x) (centred x))) (broadcast S512x1 (Scalar.ofBits .f32 0x3727C5AC#32))))
          broadcasts_S512x1_S512x256)))
    (broadcastTo S512x256 (shapeCast S1x256 v49 shapeCasts_S1x256_S1x256 : FVec Ideal S1x256 .f32) broadcasts_S1x256_S512x256)

/-- The body's stored value is the normalisation of the rectified dense layer's block: the printed term, regrouped. -/
theorem pay1_eq (v30 : FVec Ideal S512x256 .f32) (v35 : FVec Ideal S512x1024 .bf16) (v38 : FVec Ideal S1024x256 .bf16)
    (v42 : Vec Ideal S256x256 .bf16) (v45 v47 v49 : Vec Ideal S1x256 .f32) :
    Gen.k0_pay1 v30 v35 v38 v42 v45 v47 v49 = normBlock (actBlock v30 v35 v38 v42 v45) v47 v49 := rfl

/-! ## Each stage read at an index -/

/-- The row mean's column, at (p, u): the specification's mean of row p. -/
theorem meanColumn_apply (x : FVec Ideal S512x256 .f32) (p : Fin 512) (u : Fin 1) :
    meanColumn x (ix2 p u) = Cert.OmicsSpec.mean (fun c => x (ix2 p c)) := by
  unfold meanColumn Cert.OmicsSpec.mean Cert.OmicsSpec.n256
  rw [divf_apply, column_apply, laneSum_apply]
  rfl

/-- A centred block at (p, q). -/
theorem centred_apply (x : FVec Ideal S512x256 .f32) (p : Fin 512) (q : Fin 256) :
    centred x (ix2 p q) = x (ix2 p q) - Cert.OmicsSpec.mean (fun c => x (ix2 p c)) := by
  unfold centred
  rw [subf_apply, columnBroadcast_apply, meanColumn_apply]

/-- The normalised block at (p, q): the specification's normalisation of row p, at feature q. -/
theorem normBlock_apply (x : FVec Ideal S512x256 .f32) (v47 v49 : Vec Ideal S1x256 .f32) (scale shift : Fin 256 → EReal)
    (h47 : ∀ c : Fin 256, v47 (ix2 (0 : Fin 1) c) = scale c) (h49 : ∀ c : Fin 256, v49 (ix2 (0 : Fin 1) c) = shift c)
    (p : Fin 512) (q : Fin 256) :
    normBlock x v47 v49 (ix2 p q) = Cert.OmicsSpec.norm (fun c => x (ix2 p c)) scale shift q := by
  unfold normBlock Cert.OmicsSpec.norm Cert.OmicsSpec.eps
  rw [addf_apply, mulf_apply, mulf_apply, rowBroadcast_apply, rowBroadcast_apply, shapeCast_self, shapeCast_self, h47, h49,
    columnBroadcast_apply, centred_apply]
  show scale q * ((x (ix2 p q) - Cert.OmicsSpec.mean fun c => x (ix2 p c))
      * Ideal.rsqrt (meanColumn (mulf (centred x) (centred x)) (ix2 p (0 : Fin 1)) + Ideal.ofBits .f32 0x3727C5AC#32)) + shift q = _
  rw [meanColumn_apply]
  simp only [mulf_apply, centred_apply]

/-- The rectified dense layer's block at (p, c). -/
theorem actBlock_apply (v30 : FVec Ideal S512x256 .f32) (v35 : FVec Ideal S512x1024 .bf16) (v38 : FVec Ideal S1024x256 .bf16)
    (v42 : Vec Ideal S256x256 .bf16) (v45 : Vec Ideal S1x256 .f32) (p : Fin 512) (c : Fin 256) :
    actBlock v30 v35 v38 v42 v45 (ix2 p c)
      = max (∑ j : Fin 256, (v30 (ix2 p j) + ∑ k : Fin 1024, v35 (ix2 p k) * v38 (ix2 k j)) * v42 (ix2 j c)
          + v45 (ix2 (0 : Fin 1) c)) 0 := by
  unfold actBlock
  rw [maximumf_apply, addf_apply, matmul_dense_apply, rowBroadcast_apply, shapeCast_self, shapeCast_self, broadcast_apply]
  show max _ (Ideal.ofBits .f32 0x00000000#32) = _
  rw [Ideal.ofBits_zero_f32]
  simp only [truncf_apply, addf_apply, matmul_agg_apply]

/-- The three accumulated partial products, regrouped: the printed term. -/
theorem pay2_eq (v4 v14 v24 : Vec Ideal S512x1024 .f32) (v7 v17 v27 : Vec Ideal S1024x256 .bf16) :
    Gen.k0_pay2 v4 v7 v14 v17 v24 v27
      = addf (addf (addf (broadcast S512x256 (Scalar.ofBits .f32 0x00000000#32))
          (matmul dot_S512x1024_S1024x256_S512x256_1_0_0_1_n_n none (truncf .bf16 v4 bitsLt_bf16_f32 : FVec Ideal S512x1024 .bf16)
            (shapeCast S1024x256 v7 shapeCasts_S1024x256_S1024x256 : FVec Ideal S1024x256 .bf16) (constant S512x256 .f32 0x00000000#32)))
          (matmul dot_S512x1024_S1024x256_S512x256_1_0_0_1_n_n none (truncf .bf16 v14 bitsLt_bf16_f32 : FVec Ideal S512x1024 .bf16)
            (shapeCast S1024x256 v17 shapeCasts_S1024x256_S1024x256 : FVec Ideal S1024x256 .bf16) (constant S512x256 .f32 0x00000000#32)))
          (matmul dot_S512x1024_S1024x256_S512x256_1_0_0_1_n_n none (truncf .bf16 v24 bitsLt_bf16_f32 : FVec Ideal S512x1024 .bf16)
            (shapeCast S1024x256 v27 shapeCasts_S1024x256_S1024x256 : FVec Ideal S1024x256 .bf16) (constant S512x256 .f32 0x00000000#32)) := rfl

/-- The three accumulated partial products at (p, j): zero plus three chunk sums. -/
theorem pay2_apply (v4 v14 v24 : Vec Ideal S512x1024 .f32) (v7 v17 v27 : Vec Ideal S1024x256 .bf16) (p : Fin 512) (j : Fin 256) :
    Gen.k0_pay2 v4 v7 v14 v17 v24 v27 (ix2 p j)
      = ((0 + ∑ k : Fin 1024, v4 (ix2 p k) * v7 (ix2 k j)) + ∑ k : Fin 1024, v14 (ix2 p k) * v17 (ix2 k j))
          + ∑ k : Fin 1024, v24 (ix2 p k) * v27 (ix2 k j) := by
  rw [pay2_eq, addf_apply, addf_apply, addf_apply, matmul_agg_apply, matmul_agg_apply, matmul_agg_apply, broadcast_apply,
    shapeCast_self, shapeCast_self, shapeCast_self]
  show ((Ideal.ofBits .f32 0x00000000#32 + _) + _) + _ = _
  rw [Ideal.ofBits_zero_f32]
  rfl

/-- The last chunk's left operand is the block itself (the format change is the identity on extended reals) … -/
theorem pay3_apply (v34 : Vec Ideal S512x1024 .f32) (i : S512x1024.Idx) : Gen.k0_pay3 v34 i = v34 i := rfl
/-- … and its right operand the table chunk itself. -/
theorem pay4_eq (v37 : Vec Ideal S1024x256 .bf16) : Gen.k0_pay4 v37 = v37 :=
  shapeCast_self v37 shapeCasts_S1024x256_S1024x256

/-- All four partial products at (p, j): a cell's gene-weighted sum of embedding rows. -/
theorem agg_apply
    (v4 v14 v24 v34 : Vec Ideal S512x1024 .f32) (v7 v17 v27 v37 : Vec Ideal S1024x256 .bf16)
    (xrow : Fin 4096 → EReal) (feat : (⟨2, ![4096, 256]⟩ : Shape).Idx → EReal) (p : Fin 512)
    (h4 : ∀ k : Fin 1024, v4 (ix2 p k) = xrow ⟨k.val, by omega⟩)
    (h14 : ∀ k : Fin 1024, v14 (ix2 p k) = xrow ⟨1024 + k.val, by omega⟩)
    (h24 : ∀ k : Fin 1024, v24 (ix2 p k) = xrow ⟨2048 + k.val, by omega⟩)
    (h34 : ∀ k : Fin 1024, v34 (ix2 p k) = xrow ⟨3072 + k.val, by omega⟩)
    (h7 : ∀ (k : Fin 1024) (c : Fin 256), v7 (ix2 k c) = feat (ix2 (⟨k.val, by omega⟩ : Fin 4096) c))
    (h17 : ∀ (k : Fin 1024) (c : Fin 256), v17 (ix2 k c) = feat (ix2 (⟨1024 + k.val, by omega⟩ : Fin 4096) c))
    (h27 : ∀ (k : Fin 1024) (c : Fin 256), v27 (ix2 k c) = feat (ix2 (⟨2048 + k.val, by omega⟩ : Fin 4096) c))
    (h37 : ∀ (k : Fin 1024) (c : Fin 256), v37 (ix2 k c) = feat (ix2 (⟨3072 + k.val, by omega⟩ : Fin 4096) c))
    (j : Fin 256) :
    Gen.k0_pay2 v4 v7 v14 v17 v24 v27 (ix2 p j) + ∑ k : Fin 1024, Gen.k0_pay3 v34 (ix2 p k) * Gen.k0_pay4 v37 (ix2 k j)
      = Cert.OmicsSpec.agg xrow feat j := by
  unfold Cert.OmicsSpec.agg
  rw [pay2_apply, pay4_eq, ← sum_four_chunks (fun k => xrow k * feat (ix2 k j))]
  simp only [pay3_apply, h4, h14, h24, h34, h7, h17, h27, h37]

/-! ## The stored value at (p, q) -/

/-- The body's stored value at (p, q) is the specification's output row of the cell in row p, at feature q:
    `xrow` is that cell's 4096 expression values (the block's row p, chunk after chunk), `feat` the embedding
    table (its four row chunks), `W`, `bias`, `scale`, `shift` the layer's parameters. -/
theorem pay_apply
    (v4 v14 v24 v34 : Vec Ideal S512x1024 .f32) (v7 v17 v27 v37 : Vec Ideal S1024x256 .bf16)
    (v42 : Vec Ideal S256x256 .bf16) (v45 v47 v49 : Vec Ideal S1x256 .f32)
    (xrow : Fin 4096 → EReal) (feat : (⟨2, ![4096, 256]⟩ : Shape).Idx → EReal)
    (W : (⟨2, ![256, 256]⟩ : Shape).Idx → EReal) (bias scale shift : Fin 256 → EReal) (p : Fin 512)
    (h4 : ∀ k : Fin 1024, v4 (ix2 p k) = xrow ⟨k.val, by omega⟩)
    (h14 : ∀ k : Fin 1024, v14 (ix2 p k) = xrow ⟨1024 + k.val, by omega⟩)
    (h24 : ∀ k : Fin 1024, v24 (ix2 p k) = xrow ⟨2048 + k.val, by omega⟩)
    (h34 : ∀ k : Fin 1024, v34 (ix2 p k) = xrow ⟨3072 + k.val, by omega⟩)
    (h7 : ∀ (k : Fin 1024) (c : Fin 256), v7 (ix2 k c) = feat (ix2 (⟨k.val, by omega⟩ : Fin 4096) c))
    (h17 : ∀ (k : Fin 1024) (c : Fin 256), v17 (ix2 k c) = feat (ix2 (⟨1024 + k.val, by omega⟩ : Fin 4096) c))
    (h27 : ∀ (k : Fin 1024) (c : Fin 256), v27 (ix2 k c) = feat (ix2 (⟨2048 + k.val, by omega⟩ : Fin 4096) c))
    (h37 : ∀ (k : Fin 1024) (c : Fin 256), v37 (ix2 k c) = feat (ix2 (⟨3072 + k.val, by omega⟩ : Fin 4096) c))
    (h42 : ∀ j c : Fin 256, v42 (ix2 j c) = W (ix2 j c))
    (h45 : ∀ c : Fin 256, v45 (ix2 (0 : Fin 1) c) = bias c) (h47 : ∀ c : Fin 256, v47 (ix2 (0 : Fin 1) c) = scale c)
    (h49 : ∀ c : Fin 256, v49 (ix2 (0 : Fin 1) c) = shift c) (q : Fin 256) :
    Cert.KernelIdeal.Gen.k0_pay1 (Cert.KernelIdeal.Gen.k0_pay2 v4 v7 v14 v17 v24 v27) (Cert.KernelIdeal.Gen.k0_pay3 v34)
        (Cert.KernelIdeal.Gen.k0_pay4 v37) v42 v45 v47 v49 (ix2 p q)
      = Cert.OmicsSpec.outRow xrow feat W bias scale shift q := by
  rw [pay1_eq]
  refine (normBlock_apply _ v47 v49 scale shift h47 h49 p q).trans ?_
  unfold Cert.OmicsSpec.outRow
  refine congrArg (fun a => Cert.OmicsSpec.norm a scale shift q) (funext fun c => ?_)
  rw [actBlock_apply, h45]
  unfold Cert.OmicsSpec.act
  refine congrArg (fun s => max (s + bias c) 0) (Finset.sum_congr rfl fun j _ => ?_)
  rw [h42, agg_apply v4 v14 v24 v34 v7 v17 v27 v37 xrow feat p h4 h14 h24 h34 h7 h17 h27 h37 j]

end Cert.KernelIdeal.PayloadAt

end
-- ==== Proof.LibNary3.lean ====
/-
  A `stablehlo.concatenate` of THREE operands, printed as `StableHlo.nary` over a literal family
  `![x, a, b]` of three references: its result with each operand's contents at its own reference.
-/
import Idealize.ShloMosaic.Lib.StableHlo.Run

noncomputable section

namespace Idealize.ShloMosaic.StableHlo.Nary3

open Idealize.ShloMosaic.StableHlo

variable {τ : Topo} {sig : RefSig} {Val : EltTy → Type}
variable {x a b y : Ref sig .tc}

/-- `nary` over a LITERAL family of three references: the result buffer holds the function's value
    at the family whose member `k` is the contents of operand `k` AT ITS OWN REFERENCE —
    `Fin.cons (F ↑x) (Fin.cons (F ↑a) (Fin.cons (F ↑b) …))` in place of `fun k => F ↑(![x, a, b] k)`.
    Under the binder the reference `![x, a, b] k` is no literal, so no result lemma of an earlier
    operation applies to it; with the operands spelled out one by one each of them can be rewritten
    further. The two families agree at each of the three indices by computation. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo.Nary3

end
-- ==== Proof.KernelHost.lean ====
/-
  What the kernel's program hands its one pallas_call: the host operations before the region, read as values.
-/
import proofs.«407071_j83296595738829_3_alg».proof.Proof.Gen.KernelIdeal.Launch
import proofs.«407071_j83296595738829_3_alg».proof.Proof.LibNary3
import Idealize.ShloMosaic.Lib.StableHlo.Run
import Idealize.ShloMosaic.Lib.ValueIdx
import Idealize.ShloMosaic.Lib.Pipeline.Value
import Idealize.ShloMosaic.Lib.ValueLayout
import Idealize.ShloMosaic.Lib.StableHlo.Predicate

noncomputable section

namespace Cert.KernelIdeal.HostVals

open Idealize.ShloMosaic Idealize.ShloMosaic.TcCoe Idealize.ShloMosaic.ValueIdx
open Idealize.ShloMosaic.StableHlo.Nary3
open Idealize.SL Idealize.SL.Sem
open Cert.KernelIdeal Cert.KernelIdeal.Facts₀ Cert.KernelIdeal.Facts

variable [Cert.KernelIdeal.Facts] (m : (ℓ : Loc nD τ sig) → Buf (Elt Ideal) ℓ)

/-- Core `c`'s TensorCore buffers when the region is entered: after the host operations. -/
abbrev Vk (c : Dev nD) (b : Ref sig .tc) : Buf (Elt Ideal) ((c : Thread nD τ).loc b) :=
  StableHlo.after (List.flatten [Gen.hostOps0, Gen.hostOps0_1]) (fun b => m (c, b)) b

/-! ## Reading the results of a line of operations whose fold is already unfolded -/

open Idealize.ShloMosaic.StableHlo in
/-- Rewrites each operation's result at its own result buffer to its function's value, and at any other
    reference to what was there, until none applies. -/
local macro "results_loop" : tactic =>
  `(tactic| repeat (first
      | rw [nullary_result] | rw [unary_result] | rw [binary_result] | rw [ternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)
      | (rw [nary_result_ne]; rotate_left; decide)))

/-! ## The weights: a format change only -/

/-- The dense layer's weights reach the region as launched: narrowing the format is the identity on extended reals. -/
theorem V_w (c : Dev nD) : Vk m c main_v2 = m ((c : Thread nD τ).loc main_arg2) := by
  have e : (Vk m c main_v2 : S256x256.Idx → EReal)
      = truncf (F := Ideal) .bf16 (m ((c : Thread nD τ).loc main_arg2) : S256x256.Idx → EReal) bitsLt_bf16_f32 := by
    dsimp only [Vk]
    simp only [Gen.hostOps0, Gen.hostOps0_1, List.flatten_cons, List.flatten_nil, List.append_nil, List.cons_append, List.nil_append]
    after_results
  exact e

/-! ## Bias, scale and shift: three vectors of 256 stacked as rows 0–7, 8–15, 16–23 -/

/-- A vector of 256 as one row, repeated over eight rows. -/
def rows8 (x : S256.Idx → EReal) : S8x256.Idx → EReal :=
  broadcastInDim S8x256 ![0, 1] bcast_S1x256_S8x256_0_1 (fun i => shapeCast S1x256 x shapeCasts_S256_S1x256 i)

/-- Row `p` of the eight is the vector itself. -/
theorem rows8_apply (x : S256.Idx → EReal) (p : Fin 8) (q : Fin 256) : rows8 x (ix2 p q) = x (ix1 q) := by
  unfold rows8
  rw [broadcastInDim_apply (![0, 1] : Fin 2 → Fin 2) bcast_S1x256_S8x256_0_1 _ (ix2 p q) (ix2 (0 : Fin 1) q) ?_]
  · exact shapeCast_a_1a_apply x shapeCasts_S256_S1x256 0 q
  · intro a
    match a with
    | ⟨0, _⟩ => rfl
    | ⟨1, _⟩ => rfl

/-- The three stacked: what the host operations leave in the 24 × 256 array. -/
def stackK (b g s : S256.Idx → EReal) : S24x256.Idx → EReal :=
  concatenate S24x256 0 [⟨S8x256, rows8 b⟩, ⟨S8x256, rows8 g⟩, ⟨S8x256, rows8 s⟩] concatenates_S8x256_S8x256_S8x256_S24x256_d0

set_option maxHeartbeats 4000000 in
theorem V_stack (c : Dev nD) : (Vk m c main_v9 : S24x256.Idx → EReal)
    = stackK (m ((c : Thread nD τ).loc main_arg3)) (m ((c : Thread nD τ).loc main_arg4)) (m ((c : Thread nD τ).loc main_arg5)) := by
  dsimp only [Vk]
  simp only [Gen.hostOps0, Gen.hostOps0_1, List.flatten_cons, List.flatten_nil, List.append_nil, List.cons_append, List.nil_append]
  simp only [StableHlo.after_cons, StableHlo.after_nil]
  rw [nary3_result]
  results_loop
  rfl

/-- Rows 0–7 of the stack are the first vector … -/
theorem stackK_lo (b g s : S256.Idx → EReal) (r : Fin 24) (hr : r.val < 8) (q : Fin 256) :
    stackK b g s (ix2 r q) = b (ix1 q) := by
  unfold stackK
  refine (concatenate_apply_piece (t := S24x256) (0 : Fin 2) [⟨S8x256, rows8 b⟩, ⟨S8x256, rows8 g⟩, ⟨S8x256, rows8 s⟩] _
    (ix2 r q) 0 (by show (0 : Nat) < 3; omega) S8x256 (rows8 b) rfl rfl 0 rfl (ix2 (⟨r.val, hr⟩ : Fin 8) q) ?_ ?_).trans (rows8_apply b _ q)
  · intro a ha
    match a with
    | ⟨0, _⟩ => exact absurd rfl ha
    | ⟨1, _⟩ => rfl
  · show 0 + r.val = r.val
    omega

/-- … rows 8–15 the second … -/
theorem stackK_mid (b g s : S256.Idx → EReal) (r : Fin 24) (hr : 8 ≤ r.val) (hr' : r.val < 16) (q : Fin 256) :
    stackK b g s (ix2 r q) = g (ix1 q) := by
  unfold stackK
  refine (concatenate_apply_piece (t := S24x256) (0 : Fin 2) [⟨S8x256, rows8 b⟩, ⟨S8x256, rows8 g⟩, ⟨S8x256, rows8 s⟩] _
    (ix2 r q) 1 (by show (1 : Nat) < 3; omega) S8x256 (rows8 g) rfl rfl 8 rfl (ix2 (⟨r.val - 8, by omega⟩ : Fin 8) q) ?_ ?_).trans (rows8_apply g _ q)
  · intro a ha
    match a with
    | ⟨0, _⟩ => exact absurd rfl ha
    | ⟨1, _⟩ => rfl
  · show 8 + (r.val - 8) = r.val
    omega

/-- … and rows 16–23 the third. -/
theorem stackK_hi (b g s : S256.Idx → EReal) (r : Fin 24) (hr : 16 ≤ r.val) (q : Fin 256) :
    stackK b g s (ix2 r q) = s (ix1 q) := by
  unfold stackK
  refine (concatenate_apply_piece (t := S24x256) (0 : Fin 2) [⟨S8x256, rows8 b⟩, ⟨S8x256, rows8 g⟩, ⟨S8x256, rows8 s⟩] _
    (ix2 r q) 2 (by show (2 : Nat) < 3; omega) S8x256 (rows8 s) rfl rfl 16 rfl (ix2 (⟨r.val - 16, by omega⟩ : Fin 8) q) ?_ ?_).trans (rows8_apply s _ q)
  · intro a ha
    match a with
    | ⟨0, _⟩ => exact absurd rfl ha
    | ⟨1, _⟩ => rfl
  · show 16 + (r.val - 16) = r.val
    omega

/-- The bias the region reads at row 0 … -/
theorem V_bias (c : Dev nD) (q : Fin 256) :
    Vk m c main_v9 (ix2 (0 : Fin 24) q) = m ((c : Thread nD τ).loc main_arg3) (ix1 q) := by
  show (Vk m c main_v9 : S24x256.Idx → EReal) (ix2 (0 : Fin 24) q) = _
  rw [V_stack]
  exact stackK_lo _ _ _ 0 (by decide) q

/-- … the scale at row 8 … -/
theorem V_scale (c : Dev nD) (q : Fin 256) :
    Vk m c main_v9 (ix2 (8 : Fin 24) q) = m ((c : Thread nD τ).loc main_arg4) (ix1 q) := by
  show (Vk m c main_v9 : S24x256.Idx → EReal) (ix2 (8 : Fin 24) q) = _
  rw [V_stack]
  exact stackK_mid _ _ _ 8 (by decide) (by decide) q

/-- … and the shift at row 16. -/
theorem V_shift (c : Dev nD) (q : Fin 256) :
    Vk m c main_v9 (ix2 (16 : Fin 24) q) = m ((c : Thread nD τ).loc main_arg5) (ix1 q) := by
  show (Vk m c main_v9 : S24x256.Idx → EReal) (ix2 (16 : Fin 24) q) = _
  rw [V_stack]
  exact stackK_hi _ _ _ 16 (by decide) q

/-! ## The gathered table -/

/-- The embedding rows the index vector names, negative indices counted from the end: the gather is kept as ONE term,
    never read at an index. -/
def featK (emb : FVec Ideal S30000x256 .f32) (idx : IVec S4096 32) : FVec Ideal S4096x256 .f32 :=
  Host.gather gather_S30000x256_S4096x1_S4096x256_1_0_n_n_0_1_1256 emb
    (broadcastInDim S4096x1 ![0] bcast_S4096_S4096x1_0
      (select (cmpi .slt idx (broadcastInDim S4096 ![] bcast_S_S4096 (constantI S_ 32 0#32)))
        (addi idx (broadcastInDim S4096 ![] bcast_S_S4096 (constantI S_ 32 30000#32))) idx))

/-- The index vector with negative indices counted from the end, as a column. -/
def colK (idx : IVec S4096 32) : IVec S4096x1 32 :=
  broadcastInDim S4096x1 ![0] bcast_S4096_S4096x1_0
    (select (cmpi .slt idx (broadcastInDim S4096 ![] bcast_S_S4096 (constantI S_ 32 0#32)))
      (addi idx (broadcastInDim S4096 ![] bcast_S_S4096 (constantI S_ 32 30000#32))) idx)

/-- Per row: is the wrapped index inside the table, 0 ≤ · ≤ 29999? (The conjunction over the column's one entry.) -/
def inRangeK (idx : IVec S4096 32) : IVec S4096 1 :=
  Host.reduce IntOp.andi
    (andi (cmpi .sge (colK idx) (broadcastInDim S4096x1 ![] bcast_S_S4096x1 (constantI S_ 32 0#32)))
      (cmpi .sle (colK idx) (broadcastInDim S4096x1 ![0, 1] bcast_S1x1_S4096x1_0_1
        (broadcastInDim S1x1 ![1] bcast_S1_S1x1_1 (constantI S1 32 29999#32)))))
    (constantI S_ 1 1#1) reducesTo_S4096x1_S4096_d1 h_S_

set_option maxHeartbeats 4000000 in
/-- What the host operations leave in the gathered table's array: the gathered rows where the row's index is in
    range, the quiet-NaN word elsewhere; then the format change. -/
theorem V_feat_term (c : Dev nD) : (Vk m c main_v1 : S4096x256.Idx → EReal)
    = truncf (F := Ideal) .bf16
        (select (broadcastInDim S4096x256 ![0] bcast_S4096_S4096x256_0 (inRangeK (m ((c : Thread nD τ).loc main_arg6))))
          (featK (m ((c : Thread nD τ).loc main_arg1)) (m ((c : Thread nD τ).loc main_arg6)))
          (broadcastInDim S4096x256 ![] bcast_S_S4096x256 (constant (F := Ideal) S_ .f32 0x7FC00000#32)))
        bitsLt_bf16_f32 := by
  dsimp only [Vk]
  simp only [Gen.hostOps0, Gen.hostOps0_1, List.flatten_cons, List.flatten_nil, List.append_nil, List.cons_append, List.nil_append]
  after_results
  rfl

/-! ## Every row's index is in range -/

theorem sge_iff (a b : BitVec 32) : IntOp.cmpi .sge a b = 1#1 ↔ b.toInt ≤ a.toInt := by
  simp only [IntOp.cmpi, BitVec.sle, StableHlo.Predicate.ofBool_eq_one_iff, decide_eq_true_eq]
theorem sle_iff (a b : BitVec 32) : IntOp.cmpi .sle a b = 1#1 ↔ a.toInt ≤ b.toInt := by
  simp only [IntOp.cmpi, BitVec.sle, StableHlo.Predicate.ofBool_eq_one_iff, decide_eq_true_eq]
theorem slt_iff (a b : BitVec 32) : IntOp.cmpi .slt a b = 1#1 ↔ a.toInt < b.toInt := by
  simp only [IntOp.cmpi, BitVec.slt, StableHlo.Predicate.ofBool_eq_one_iff, decide_eq_true_eq]

/-- A word in [-30000, 30000), 30000 added when negative, lies in [0, 29999]: both range tests are set. -/
theorem wrapped_in_range (w : BitVec 32) (h0 : (-30000 : Int) ≤ w.toInt) (h1 : w.toInt < 30000) :
    IntOp.andi
      (IntOp.cmpi .sge (Scalar.select (IntOp.cmpi .slt w 0#32) (IntOp.addi w 30000#32) w) 0#32)
      (IntOp.cmpi .sle (Scalar.select (IntOp.cmpi .slt w 0#32) (IntOp.addi w 30000#32) w) 29999#32) = 1#1 := by
  have hz : (0#32 : BitVec 32).toInt = 0 := by decide
  have hc : (30000#32 : BitVec 32).toInt = 30000 := by decide
  have hh : (29999#32 : BitVec 32).toInt = 29999 := by decide
  have both : ∀ a b : BitVec 1, a = 1#1 → b = 1#1 → IntOp.andi a b = 1#1 := by
    intro a b ha hb; subst ha; subst hb; rfl
  by_cases hneg : w.toInt < 0
  · have hs : IntOp.cmpi .slt w 0#32 = 1#1 := (slt_iff w 0#32).2 (by rw [hz]; exact hneg)
    rw [hs, select_one]
    have ha : (IntOp.addi w 30000#32).toInt = w.toInt + 30000 := by
      show (w + 30000#32).toInt = _
      rw [BitVec.toInt_add, hc]
      simp only [Int.bmod]
      omega
    exact both _ _ ((sge_iff _ _).2 (by rw [ha, hz]; omega)) ((sle_iff _ _).2 (by rw [ha, hh]; omega))
  · have hs : IntOp.cmpi .slt w 0#32 = 0#1 :=
      eq_zero_of_ne_one fun h => hneg (by have := (slt_iff w 0#32).1 h; rw [hz] at this; exact this)
    rw [hs, select_zero]
    exact both _ _ ((sge_iff _ _).2 (by rw [hz]; omega)) ((sle_iff _ _).2 (by rw [hh]; omega))

/-- A conjunction-reduce whose every operand bit is set, from a set initial bit, is set everywhere. -/
theorem reduce_andi_one {s t u : Shape} {axes : List (Fin s.rank)} (x : IVec s 1) (init : IVec u 1)
    (h : s.ReducesTo axes t) (hu : 0 < u.numel) (hx : ∀ i, x i = 1#1) (hi : ∀ i, init i = 1#1) (j : t.Idx) :
    Host.reduce IntOp.andi x init h hu j = 1#1 := by
  rw [Host.reduce_eq_foldl, hi]
  generalize (((List.finRange s.numel).map s.rowMajor.symm).filter fun i => h.drop i = j) = l
  induction l with
  | nil => rfl
  | cons i l ih => rw [List.foldl_cons, hx i]; exact ih

/-- With every index in [-30000, 30000) every row's range bit is set. -/
theorem inRangeK_one (idx : IVec S4096 32)
    (hr : ∀ k : Fin 4096, (-30000 : Int) ≤ (idx (ix1 k)).toInt ∧ (idx (ix1 k)).toInt < 30000) (j : S4096.Idx) :
    inRangeK idx j = 1#1 := by
  unfold inRangeK
  refine reduce_andi_one _ _ _ _ (fun i => ?_) (fun _ => rfl) j
  obtain ⟨p, q, rfl⟩ : ∃ (p : Fin 4096) (q : Fin 1), i = ix2 p q := ⟨i 0, i 1, eq_ix2 i⟩
  have hcol : colK idx (ix2 p q)
      = Scalar.select (IntOp.cmpi .slt (idx (ix1 p)) 0#32) (IntOp.addi (idx (ix1 p)) 30000#32) (idx (ix1 p)) := by
    unfold colK
    refine (broadcastInDim_apply _ bcast_S4096_S4096x1_0 _ (ix2 p q) (ix1 p) ?_).trans rfl
    intro a
    match a with
    | ⟨0, _⟩ => rfl
  show IntOp.andi (IntOp.cmpi .sge (colK idx (ix2 p q)) 0#32) (IntOp.cmpi .sle (colK idx (ix2 p q)) 29999#32) = 1#1
  rw [hcol]
  exact wrapped_in_range _ (hr p).1 (hr p).2

/-- The gathered table the region reads: with every index in [-30000, 30000) no row is masked out, and the format
    change is the identity on extended reals. -/
theorem V_feat (c : Dev nD)
    (hr : ∀ k : Fin 4096, (-30000 : Int) ≤ ((m ((c : Thread nD τ).loc main_arg6) : IVec S4096 32) (ix1 k)).toInt
      ∧ ((m ((c : Thread nD τ).loc main_arg6) : IVec S4096 32) (ix1 k)).toInt < 30000) :
    Vk m c main_v1 = featK (m ((c : Thread nD τ).loc main_arg1)) (m ((c : Thread nD τ).loc main_arg6)) := by
  refine (V_feat_term m c).trans ?_
  funext j
  obtain ⟨p, q, rfl⟩ : ∃ (p : Fin 4096) (q : Fin 256), j = ix2 p q := ⟨j 0, j 1, eq_ix2 j⟩
  rw [truncf_apply, select_apply]
  have hm : broadcastInDim S4096x256 ![0] bcast_S4096_S4096x256_0
      (inRangeK (m ((c : Thread nD τ).loc main_arg6))) (ix2 p q) = 1#1 := by
    refine (broadcastInDim_apply _ bcast_S4096_S4096x256_0 _ (ix2 p q) (ix1 p) ?_).trans (inRangeK_one _ hr _)
    intro a
    match a with
    | ⟨0, _⟩ => rfl
  rw [hm, select_one]

end Cert.KernelIdeal.HostVals

end
-- ==== Proof.KernelValue.lean ====
import proofs.«407071_j83296595738829_3_alg».proof.Proof.PayloadAt
import proofs.«407071_j83296595738829_3_alg».proof.Proof.KernelHost
import proofs.«407071_j83296595738829_3_alg».proof.Proof.FrameKernelIdeal
import proofs.«407071_j83296595738829_3_alg».proof.Proof.Spec
import Idealize.ShloMosaic.Lib.ValueIdx
import Idealize.ShloMosaic.Lib.Pipeline.Value

set_option maxRecDepth 16384

noncomputable section

/-
  The result array of the idealized kernel program, read off its frame run, as ONE function of the starting memory.

  Point t of the grid writes block t of the output: rows 512 t … 512 t + 511. Row p of that block is computed from
  row 512 t + p of x (its four 1024-column chunks), the whole gathered table (its four 1024-row chunks), the whole
  weight, and rows 0, 8, 16 of the packed array, which hold bias, scale and shift: exactly the data of cell
  512 t + p in the specification. The 32 blocks tile the 16384 rows, so the array ends at the specification's
  function of the argument arrays — the gathered table being the masked gather, which under the index range is the
  gather itself.
-/
namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem hz : (![0, 0] : Fin 2 → Nat) = fun _ => 0 := funext fun a => by fin_cases a <;> rfl

/-- The block index maps over the grid: x and the output move with the point along the rows; the table, the
    weight and the packed rows stay put. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem t_lt (t : Fin cfg0.N) : t.val < 32 := by have := t.isLt; have e : cfg0.N = 32 := N_0; omega

/-- Row 512 t + p of the whole array, for row p of block t. -/
abbrev rowOf (t : Fin cfg0.N) (p : Fin 512) : Fin 16384 := ⟨512 * t.val + p.val, by have := t_lt t; omega⟩

/-- The result array as one function of the starting memory. -/
abbrev Gm (c : Dev nD) : S16384x256.Idx → EReal :=
  Cert.OmicsSpec.G (m ((c : Thread nD τ).loc main_arg0))
    (HostVals.featK (m ((c : Thread nD τ).loc main_arg1)) (m ((c : Thread nD τ).loc main_arg6)))
    (m ((c : Thread nD τ).loc main_arg2)) (m ((c : Thread nD τ).loc main_arg3))
    (m ((c : Thread nD τ).loc main_arg4)) (m ((c : Thread nD τ).loc main_arg5))

/-! ## What each load reads -/

/-- Chunk n of the block of x at point t, row p: row 512 t + p of x, columns 1024 n + k. -/
theorem ldX0 (c : Dev nD) (t : Fin cfg0.N) (p : Fin 512) (k : Fin 1024) :
    View.ld (iblk m c 0 t) rX0 (ix2 p k) = V m c main_arg0 (ix2 (rowOf t p) (⟨k.val, by omega⟩ : Fin 4096)) := by
  show V m c main_arg0 (((cfg0.win 0).blk t).view.emb (rX0.emb (ix2 p k))) = _
  congr 1; funext a; apply Fin.ext
  match a with
  | ⟨0, _⟩ =>
    show win0_0.index t (0 : Fin 2) * 512 + 1 * ((k0_off1 0#32) 0 + 1 * p.val) = 512 * t.val + p.val
    have e : (k0_off1 0#32) 0 = 0 := by decide
    have := (idx_facts t).1; omega
  | ⟨1, _⟩ =>
    show win0_0.index t (1 : Fin 2) * 4096 + 1 * ((k0_off1 0#32) 1 + 1 * k.val) = k.val
    have e : (k0_off1 0#32) 1 = 0 := by decide
    have := (idx_facts t).2.1; omega
theorem ldX1 (c : Dev nD) (t : Fin cfg0.N) (p : Fin 512) (k : Fin 1024) :
    View.ld (iblk m c 0 t) rX1 (ix2 p k) = V m c main_arg0 (ix2 (rowOf t p) (⟨1024 + k.val, by omega⟩ : Fin 4096)) := by
  show V m c main_arg0 (((cfg0.win 0).blk t).view.emb (rX1.emb (ix2 p k))) = _
  congr 1; funext a; apply Fin.ext
  match a with
  | ⟨0, _⟩ =>
    show win0_0.index t (0 : Fin 2) * 512 + 1 * ((k0_off1 1#32) 0 + 1 * p.val) = 512 * t.val + p.val
    have e : (k0_off1 1#32) 0 = 0 := by decide
    have := (idx_facts t).1; omega
  | ⟨1, _⟩ =>
    show win0_0.index t (1 : Fin 2) * 4096 + 1 * ((k0_off1 1#32) 1 + 1 * k.val) = 1024 + k.val
    have e : (k0_off1 1#32) 1 = 1024 := by decide
    have := (idx_facts t).2.1; omega
theorem ldX2 (c : Dev nD) (t : Fin cfg0.N) (p : Fin 512) (k : Fin 1024) :
    View.ld (iblk m c 0 t) rX2 (ix2 p k) = V m c main_arg0 (ix2 (rowOf t p) (⟨2048 + k.val, by omega⟩ : Fin 4096)) := by
  show V m c main_arg0 (((cfg0.win 0).blk t).view.emb (rX2.emb (ix2 p k))) = _
  congr 1; funext a; apply Fin.ext
  match a with
  | ⟨0, _⟩ =>
    show win0_0.index t (0 : Fin 2) * 512 + 1 * ((k0_off1 2#32) 0 + 1 * p.val) = 512 * t.val + p.val
    have e : (k0_off1 2#32) 0 = 0 := by decide
    have := (idx_facts t).1; omega
  | ⟨1, _⟩ =>
    show win0_0.index t (1 : Fin 2) * 4096 + 1 * ((k0_off1 2#32) 1 + 1 * k.val) = 2048 + k.val
    have e : (k0_off1 2#32) 1 = 2048 := by decide
    have := (idx_facts t).2.1; omega
theorem ldX3 (c : Dev nD) (t : Fin cfg0.N) (p : Fin 512) (k : Fin 1024) :
    View.ld (iblk m c 0 t) rX3 (ix2 p k) = V m c main_arg0 (ix2 (rowOf t p) (⟨3072 + k.val, by omega⟩ : Fin 4096)) := by
  show V m c main_arg0 (((cfg0.win 0).blk t).view.emb (rX3.emb (ix2 p k))) = _
  congr 1; funext a; apply Fin.ext
  match a with
  | ⟨0, _⟩ =>
    show win0_0.index t (0 : Fin 2) * 512 + 1 * ((k0_off1 3#32) 0 + 1 * p.val) = 512 * t.val + p.val
    have e : (k0_off1 3#32) 0 = 0 := by decide
    have := (idx_facts t).1; omega
  | ⟨1, _⟩ =>
    show win0_0.index t (1 : Fin 2) * 4096 + 1 * ((k0_off1 3#32) 1 + 1 * k.val) = 3072 + k.val
    have e : (k0_off1 3#32) 1 = 3072 := by decide
    have := (idx_facts t).2.1; omega

/-- Chunk n of the table: rows 1024 n + k of the array window 1 stages. -/
theorem ldT0 (c : Dev nD) (t : Fin cfg0.N) (k : Fin 1024) (q : Fin 256) :
    View.ld (iblk m c 1 t) rT0 (ix2 k q) = V m c main_v1 (ix2 (⟨k.val, by omega⟩ : Fin 4096) q) := by
  show V m c main_v1 (((cfg0.win 1).blk t).view.emb (rT0.emb (ix2 k q))) = _
  congr 1; funext a; apply Fin.ext
  match a with
  | ⟨0, _⟩ =>
    show win0_1.index t (0 : Fin 2) * 4096 + 1 * ((k0_off2 0#32) 0 + 1 * k.val) = k.val
    have e : (k0_off2 0#32) 0 = 0 := by decide
    have := (idx_facts t).2.2.1; omega
  | ⟨1, _⟩ =>
    show win0_1.index t (1 : Fin 2) * 256 + 1 * ((k0_off2 0#32) 1 + 1 * q.val) = q.val
    have e : (k0_off2 0#32) 1 = 0 := by decide
    have := (idx_facts t).2.2.2.1; omega
theorem ldT1 (c : Dev nD) (t : Fin cfg0.N) (k : Fin 1024) (q : Fin 256) :
    View.ld (iblk m c 1 t) rT1 (ix2 k q) = V m c main_v1 (ix2 (⟨1024 + k.val, by omega⟩ : Fin 4096) q) := by
  show V m c main_v1 (((cfg0.win 1).blk t).view.emb (rT1.emb (ix2 k q))) = _
  congr 1; funext a; apply Fin.ext
  match a with
  | ⟨0, _⟩ =>
    show win0_1.index t (0 : Fin 2) * 4096 + 1 * ((k0_off2 1#32) 0 + 1 * k.val) = 1024 + k.val
    have e : (k0_off2 1#32) 0 = 1024 := by decide
    have := (idx_facts t).2.2.1; omega
  | ⟨1, _⟩ =>
    show win0_1.index t (1 : Fin 2) * 256 + 1 * ((k0_off2 1#32) 1 + 1 * q.val) = q.val
    have e : (k0_off2 1#32) 1 = 0 := by decide
    have := (idx_facts t).2.2.2.1; omega
theorem ldT2 (c : Dev nD) (t : Fin cfg0.N) (k : Fin 1024) (q : Fin 256) :
    View.ld (iblk m c 1 t) rT2 (ix2 k q) = V m c main_v1 (ix2 (⟨2048 + k.val, by omega⟩ : Fin 4096) q) := by
  show V m c main_v1 (((cfg0.win 1).blk t).view.emb (rT2.emb (ix2 k q))) = _
  congr 1; funext a; apply Fin.ext
  match a with
  | ⟨0, _⟩ =>
    show win0_1.index t (0 : Fin 2) * 4096 + 1 * ((k0_off2 2#32) 0 + 1 * k.val) = 2048 + k.val
    have e : (k0_off2 2#32) 0 = 2048 := by decide
    have := (idx_facts t).2.2.1; omega
  | ⟨1, _⟩ =>
    show win0_1.index t (1 : Fin 2) * 256 + 1 * ((k0_off2 2#32) 1 + 1 * q.val) = q.val
    have e : (k0_off2 2#32) 1 = 0 := by decide
    have := (idx_facts t).2.2.2.1; omega
theorem ldT3 (c : Dev nD) (t : Fin cfg0.N) (k : Fin 1024) (q : Fin 256) :
    View.ld (iblk m c 1 t) rT3 (ix2 k q) = V m c main_v1 (ix2 (⟨3072 + k.val, by omega⟩ : Fin 4096) q) := by
  show V m c main_v1 (((cfg0.win 1).blk t).view.emb (rT3.emb (ix2 k q))) = _
  congr 1; funext a; apply Fin.ext
  match a with
  | ⟨0, _⟩ =>
    show win0_1.index t (0 : Fin 2) * 4096 + 1 * ((k0_off2 3#32) 0 + 1 * k.val) = 3072 + k.val
    have e : (k0_off2 3#32) 0 = 3072 := by decide
    have := (idx_facts t).2.2.1; omega
  | ⟨1, _⟩ =>
    show win0_1.index t (1 : Fin 2) * 256 + 1 * ((k0_off2 3#32) 1 + 1 * q.val) = q.val
    have e : (k0_off2 3#32) 1 = 0 := by decide
    have := (idx_facts t).2.2.2.1; omega

/-- The weight, whole. -/
theorem ldW (c : Dev nD) (t : Fin cfg0.N) (j q : Fin 256) :
    View.ld (iblk m c 2 t) rW (ix2 j q) = V m c main_v2 (ix2 j q) := by
  show V m c main_v2 (((cfg0.win 2).blk t).view.emb (rW.emb (ix2 j q))) = _
  congr 1; funext a; apply Fin.ext
  match a with
  | ⟨0, _⟩ =>
    show win0_2.index t (0 : Fin 2) * 256 + 1 * (0 + 1 * j.val) = j.val
    have := (idx_facts t).2.2.2.2.1; omega
  | ⟨1, _⟩ =>
    show win0_2.index t (1 : Fin 2) * 256 + 1 * (0 + 1 * q.val) = q.val
    have := (idx_facts t).2.2.2.2.2.1; omega

/-- Rows 0, 8 and 16 of the packed array. -/
theorem ldP0 (c : Dev nD) (t : Fin cfg0.N) (q : Fin 256) :
    View.ld (iblk m c 3 t) rP0 (ix2 (0 : Fin 1) q) = V m c main_v9 (ix2 (0 : Fin 24) q) := by
  show V m c main_v9 (((cfg0.win 3).blk t).view.emb (rP0.emb (ix2 (0 : Fin 1) q))) = _
  congr 1; funext a; apply Fin.ext
  match a with
  | ⟨0, _⟩ =>
    show win0_3.index t (0 : Fin 2) * 24 + 1 * (0 + 1 * 0) = 0
    have := (idx_facts t).2.2.2.2.2.2.1; omega
  | ⟨1, _⟩ =>
    show win0_3.index t (1 : Fin 2) * 256 + 1 * (0 + 1 * q.val) = q.val
    have := (idx_facts t).2.2.2.2.2.2.2.1; omega
theorem ldP8 (c : Dev nD) (t : Fin cfg0.N) (q : Fin 256) :
    View.ld (iblk m c 3 t) rP8 (ix2 (0 : Fin 1) q) = V m c main_v9 (ix2 (8 : Fin 24) q) := by
  show V m c main_v9 (((cfg0.win 3).blk t).view.emb (rP8.emb (ix2 (0 : Fin 1) q))) = _
  congr 1; funext a; apply Fin.ext
  match a with
  | ⟨0, _⟩ =>
    show win0_3.index t (0 : Fin 2) * 24 + 1 * (8 + 1 * 0) = 8
    have := (idx_facts t).2.2.2.2.2.2.1; omega
  | ⟨1, _⟩ =>
    show win0_3.index t (1 : Fin 2) * 256 + 1 * (0 + 1 * q.val) = q.val
    have := (idx_facts t).2.2.2.2.2.2.2.1; omega
theorem ldP16 (c : Dev nD) (t : Fin cfg0.N) (q : Fin 256) :
    View.ld (iblk m c 3 t) rP16 (ix2 (0 : Fin 1) q) = V m c main_v9 (ix2 (16 : Fin 24) q) := by
  show V m c main_v9 (((cfg0.win 3).blk t).view.emb (rP16.emb (ix2 (0 : Fin 1) q))) = _
  congr 1; funext a; apply Fin.ext
  match a with
  | ⟨0, _⟩ =>
    show win0_3.index t (0 : Fin 2) * 24 + 1 * (16 + 1 * 0) = 16
    have := (idx_facts t).2.2.2.2.2.2.1; omega
  | ⟨1, _⟩ =>
    show win0_3.index t (1 : Fin 2) * 256 + 1 * (0 + 1 * q.val) = q.val
    have := (idx_facts t).2.2.2.2.2.2.2.1; omega

/-- Where row p, column q of output block t lies in the whole array. -/
theorem emb_out (t : Fin cfg0.N) (p : Fin 512) (q : Fin 256) :
    ((cfg0.win 4).blk t).view.emb (ix2 p q) = ix2 (rowOf t p) q := by
  funext a; apply Fin.ext
  match a with
  | ⟨0, _⟩ =>
    show win0_4.index t (0 : Fin 2) * 512 + 1 * p.val = 512 * t.val + p.val
    have := (idx_facts t).2.2.2.2.2.2.2.2.1; omega
  | ⟨1, _⟩ =>
    show win0_4.index t (1 : Fin 2) * 256 + 1 * q.val = q.val
    have := (idx_facts t).2.2.2.2.2.2.2.2.2; omega

/-! ## What a point writes back -/

/-- Point t writes back block t of the specification's function of the argument arrays. -/
theorem flushed_eq (c : Dev nD) (hr : ∀ k : Fin 4096, (-30000 : Int) ≤ ((m ((c : Thread nD τ).loc main_arg6) : IVec S4096 32) (ix1 k)).toInt ∧ ((m ((c : Thread nD τ).loc main_arg6) : IVec S4096 32) (ix1 k)).toInt < 30000) (t : Fin cfg0.N) :
    (dats m 0 c).flushed 4 t = ((cfg0.win 4).blk t).view.read (Elt Ideal) (Gm m c) := by
  show (cfg0.win 4).cut (grid0.coords t) ((dats m 0 c).after 4 t) = _
  rw [after0_4]
  unfold out0_4
  rw [View.canon_unit_zero hz]
  funext j
  obtain ⟨p, q, rfl⟩ : ∃ (p : Fin 512) (q : Fin 256), j = ix2 p q := ⟨j 0, j 1, eq_ix2 j⟩
  show _ = Gm m c (((cfg0.win 4).blk t).view.emb (ix2 p q))
  rw [emb_out t p q]
  show _ = Cert.OmicsSpec.outRow _ _ _ _ _ _ q
  refine PayloadAt.pay_apply _ _ _ _ _ _ _ _ _ _ _ _ _ _ _ _ _ _ p ?_ ?_ ?_ ?_ ?_ ?_ ?_ ?_ ?_ ?_ ?_ ?_ q
  · intro k; rw [ldX0, V_main_arg0]
  · intro k; rw [ldX1, V_main_arg0]
  · intro k; rw [ldX2, V_main_arg0]
  · intro k; rw [ldX3, V_main_arg0]
  · intro k c'; rw [ldT0]; exact congrFun (HostVals.V_feat m c hr) _
  · intro k c'; rw [ldT1]; exact congrFun (HostVals.V_feat m c hr) _
  · intro k c'; rw [ldT2]; exact congrFun (HostVals.V_feat m c hr) _
  · intro k c'; rw [ldT3]; exact congrFun (HostVals.V_feat m c hr) _
  · intro j' c'; rw [ldW]; exact congrFun (HostVals.V_w m c) _
  · intro c'; rw [ldP0]; exact HostVals.V_bias m c c'
  · intro c'; rw [ldP8]; exact HostVals.V_scale m c c'
  · intro c'; rw [ldP16]; exact HostVals.V_shift m c c'

/-! ## The blocks tile the rows -/

theorem mem_blk (t : Fin cfg0.N) (i : S16384x256.Idx) :
    i ∈ ((cfg0.win 4).blk t).view.set ↔ ∀ a : Fin 2, win0_4.index t a * S512x256.size a ≤ (i a).val ∧ (i a).val < win0_4.index t a * S512x256.size a + S512x256.size a := by
  show i ∈ ((View.whole main_v10).slice (win0_4.rect t)).set ↔ _
  rw [View.set_slice_whole, Rect.mem_set_unit]
  exact Iff.rfl

/-- Row r lies in the block of point r / 512. -/
theorem cover (i : S16384x256.Idx) : ∃ t : Fin cfg0.N, (cfg0.win 4).flush t = true ∧ i ∈ ((cfg0.win 4).blk t).view.set := by
  have hi0 : (i 0).val < 16384 := (i 0).isLt
  have hi1 : (i 1).val < 256 := (i 1).isLt
  have hN : cfg0.N = 32 := N_0
  refine ⟨⟨(i 0).val / 512, by rw [hN]; omega⟩, flush0_4 _, ?_⟩
  rw [mem_blk]
  intro a
  obtain ⟨-, -, -, -, -, -, -, -, e0, e1⟩ := idx_facts ⟨(i 0).val / 512, by rw [hN]; omega⟩
  match a with
  | ⟨0, _⟩ =>
    show win0_4.index _ (0 : Fin 2) * 512 ≤ (i 0).val ∧ (i 0).val < win0_4.index _ (0 : Fin 2) * 512 + 512
    rw [e0]; show (i 0).val / 512 * 512 ≤ (i 0).val ∧ (i 0).val < (i 0).val / 512 * 512 + 512; omega
  | ⟨1, _⟩ =>
    show win0_4.index _ (1 : Fin 2) * 256 ≤ (i 1).val ∧ (i 1).val < win0_4.index _ (1 : Fin 2) * 256 + 256
    rw [e1]; omega

/-- The result array after the run. -/
theorem final (c : Dev nD) (hr : ∀ k : Fin 4096, (-30000 : Int) ≤ ((m ((c : Thread nD τ).loc main_arg6) : IVec S4096 32) (ix1 k)).toInt ∧ ((m ((c : Thread nD τ).loc main_arg6) : IVec S4096 32) (ix1 k)).toInt < 30000) : (dats m 0 c).arrAt 4 cfg0.N = Gm m c :=
  (dats m 0 c).arrAt_eq_of_cover 4 (Gm m c) (fun t _ => flushed_eq m c hr t) cover

/-! ## The run, read -/

/-- Every weakly fair execution of the program ends with the result array at the specification's function of the
    argument arrays and the arguments unchanged, when every gene index is in range. -/
theorem run (hr : ∀ c : Dev nD, ∀ k : Fin 4096, (-30000 : Int) ≤ ((m ((c : Thread nD τ).loc main_arg6) : IVec S4096 32) (ix1 k)).toInt ∧ ((m ((c : Thread nD τ).loc main_arg6) : IVec S4096 32) (ix1 k)).toInt < 30000) :
    θ_run defs (onTc (τ := τ) (main (F := Ideal))) ⟨m, fun _ => 0, ρ⟩ (fun r => ∀ c : Dev nD,
      r.2.mem ((c.tc : Thread nD τ).loc main_v10) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 4).trans (final m c (hr c)),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Cert.KernelIdeal.Val

end
-- ==== Proof.RefValue.lean ====
import proofs.«407071_j83296595738829_3_alg».proof.Defs
import proofs.«407071_j83296595738829_3_alg».proof.Proof.Gen.ReferenceIdeal.Run
import proofs.«407071_j83296595738829_3_alg».proof.Proof.Gen.ReferenceIdeal.Read
import proofs.«407071_j83296595738829_3_alg».proof.Proof.Spec
import Idealize.ShloMosaic.Lib.ValueIdx
import Idealize.ShloMosaic.Lib.Pipeline.Value
import Idealize.ShloMosaic.PureOps.Ideal.Laws
import Idealize.ShloMosaic.Lib.StableHlo.Run

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx Cert.OmicsSpec

/-- The gathered embedding table: row `g` of the result is the row of `emb` that the (wrapped) gene index `idx g`
    names. It is one term of the two arguments, never read at an index here. -/
def featR (emb : FVec Ideal S30000x256 .f32) (idx : IVec S4096 32) : FVec Ideal S4096x256 .f32 :=
  Host.gather gather_S30000x256_S4096x1_S4096x256_1_0_n_n_0_1_1256 emb
    (broadcastInDim S4096x1 ![0] bcast_S4096_S4096x1_0
      (select (cmpi .slt idx (broadcastInDim S4096 ![] bcast_S_S4096 (constantI S_ 32 0#32)))
        (addi idx (broadcastInDim S4096 ![] bcast_S_S4096 (constantI S_ 32 30000#32))) idx))

/-- The gather stage of the reference is that table. -/
theorem featR_eq (emb : FVec Ideal S30000x256 .f32) (idx : IVec S4096 32) :
    val_main_v6 (F := Ideal) emb idx = featR emb idx := rfl

variable (x : FVec Ideal S16384x4096 .f32) (emb : FVec Ideal S30000x256 .f32) (W1 : FVec Ideal S256x256 .f32)
  (b1 gamma beta : FVec Ideal S256 .f32) (idx : IVec S4096 32)

/-- The gene-weighted sum of embedding rows, at cell `b` and feature `c`. -/
theorem v7_at (b : Fin 16384) (c : Fin 256) :
    val_main_v7 (F := Ideal) x emb idx (ix2 b c) = agg (fun k => x (ix2 b k)) (featR emb idx) c := by
  rw [val_main_v7_apply, featR_eq]
  unfold agg
  refine Finset.sum_congr rfl fun k _ => ?_
  have el : lidx_main_v7 (ix2 b c) k = ix2 b k :=
    funext fun a => Fin.ext (by match a with | ⟨0, _⟩ => rfl | ⟨1, _⟩ => rfl)
  have er : ridx_main_v7 (ix2 b c) k = ix2 k c :=
    funext fun a => Fin.ext (by match a with | ⟨0, _⟩ => rfl | ⟨1, _⟩ => rfl)
  rw [el, er]

/-- The dense layer before its bias, at cell `b` and feature `c`. -/
theorem v8_at (b : Fin 16384) (c : Fin 256) :
    val_main_v8 (F := Ideal) x emb W1 idx (ix2 b c)
      = ∑ j : Fin 256, agg (fun k => x (ix2 b k)) (featR emb idx) j * W1 (ix2 j c) := by
  rw [val_main_v8_apply]
  refine Finset.sum_congr rfl fun k _ => ?_
  have el : lidx_main_v8 (ix2 b c) k = ix2 b k :=
    funext fun a => Fin.ext (by match a with | ⟨0, _⟩ => rfl | ⟨1, _⟩ => rfl)
  have er : ridx_main_v8 (ix2 b c) k = ix2 k c :=
    funext fun a => Fin.ext (by match a with | ⟨0, _⟩ => rfl | ⟨1, _⟩ => rfl)
  rw [el, er, v7_at]

/-- Cell `b`'s 256 rectified activations, as the specification writes them. -/
def actRow (b : Fin 16384) : Fin 256 → EReal :=
  act (fun k => x (ix2 b k)) (featR emb idx) W1 (fun c => b1 (ix1 c))

/-- The rectified dense layer, at cell `b` and feature `c`: the bias is broadcast along the cells, the rectifier's
    zero is the zero word. -/
theorem v12_at (b : Fin 16384) (c : Fin 256) :
    val_main_v12 (F := Ideal) x emb W1 b1 idx (ix2 b c) = actRow x emb W1 b1 idx b c := by
  rw [val_main_v12_apply, val_main_v11_apply, v8_at, val_main_v10_apply, val_main_v9_apply,
    val_main_call0_v0_apply, val_main_call0_cst_apply]
  have e : idx_main_v9 (idx_main_v10 (ix2 b c)) = ix1 c :=
    funext fun a => Fin.ext (by match a with | ⟨0, _⟩ => rfl)
  rw [e]
  simp only [Ideal.maximumf_def, Ideal.addf_def, Ideal.ofBits_def, Ideal.ofBits_zero_f32]
  rfl

/-- The sum of cell `b`'s activations: the sum's initial value is the zero word. -/
theorem v13_at (b : Fin 16384) :
    val_main_v13 (F := Ideal) x emb W1 b1 idx (ix1 b) = ∑ c : Fin 256, actRow x emb W1 b1 idx b c := by
  rw [val_main_v13_apply, val_main_cst_apply]
  simp only [Ideal.ofBits_def, Ideal.ofBits_zero_f32, zero_add]
  refine Finset.sum_congr rfl fun k _ => ?_
  have e : idx_main_v13 (ix1 b) k = ix2 b k :=
    funext fun a => Fin.ext (by match a with | ⟨0, _⟩ => rfl | ⟨1, _⟩ => rfl)
  rw [e, v12_at]

/-- The mean of cell `b`'s activations (kept as a one-column array). -/
theorem v16_at (b : Fin 16384) (z : Fin 1) :
    val_main_v16 (F := Ideal) x emb W1 b1 idx (ix2 b z) = mean (actRow x emb W1 b1 idx b) := by
  rw [val_main_v16_apply, val_main_v14_apply, val_main_v15_apply, val_main_cst_1_apply]
  have e : idx_main_v14 (ix2 b z) = ix1 b :=
    funext fun a => Fin.ext (by match a with | ⟨0, _⟩ => rfl)
  rw [e, v13_at]
  rfl

/-- The centred activation (the copy that is squared). -/
theorem v18_at (b : Fin 16384) (c : Fin 256) :
    val_main_v18 (F := Ideal) x emb W1 b1 idx (ix2 b c)
      = actRow x emb W1 b1 idx b c - mean (actRow x emb W1 b1 idx b) := by
  rw [val_main_v18_apply, val_main_v17_apply, v12_at]
  have e : idx_main_v17 (ix2 b c) = ix2 b (⟨0, Nat.one_pos⟩ : Fin 1) :=
    funext fun a => Fin.ext (by match a with | ⟨0, _⟩ => rfl | ⟨1, _⟩ => rfl)
  rw [e, v16_at]
  rfl

/-- The centred activation (the copy that is scaled). -/
theorem v25_at (b : Fin 16384) (c : Fin 256) :
    val_main_v25 (F := Ideal) x emb W1 b1 idx (ix2 b c)
      = actRow x emb W1 b1 idx b c - mean (actRow x emb W1 b1 idx b) := by
  rw [val_main_v25_apply, val_main_v24_apply, v12_at]
  have e : idx_main_v24 (ix2 b c) = ix2 b (⟨0, Nat.one_pos⟩ : Fin 1) :=
    funext fun a => Fin.ext (by match a with | ⟨0, _⟩ => rfl | ⟨1, _⟩ => rfl)
  rw [e, v16_at]
  rfl

/-- The sum of cell `b`'s squared centred activations. -/
theorem v20_at (b : Fin 16384) :
    val_main_v20 (F := Ideal) x emb W1 b1 idx (ix1 b)
      = ∑ c : Fin 256, (actRow x emb W1 b1 idx b c - mean (actRow x emb W1 b1 idx b))
          * (actRow x emb W1 b1 idx b c - mean (actRow x emb W1 b1 idx b)) := by
  rw [val_main_v20_apply, val_main_cst_2_apply]
  simp only [Ideal.ofBits_def, Ideal.ofBits_zero_f32, zero_add]
  refine Finset.sum_congr rfl fun k _ => ?_
  have e : idx_main_v20 (ix1 b) k = ix2 b k :=
    funext fun a => Fin.ext (by match a with | ⟨0, _⟩ => rfl | ⟨1, _⟩ => rfl)
  rw [e, val_main_v19_apply, v18_at]
  rfl

/-- The variance of cell `b`'s activations (kept as a one-column array). -/
theorem v23_at (b : Fin 16384) (z : Fin 1) :
    val_main_v23 (F := Ideal) x emb W1 b1 idx (ix2 b z)
      = mean (fun c' => (actRow x emb W1 b1 idx b c' - mean (actRow x emb W1 b1 idx b))
          * (actRow x emb W1 b1 idx b c' - mean (actRow x emb W1 b1 idx b))) := by
  rw [val_main_v23_apply, val_main_v21_apply, val_main_v22_apply, val_main_cst_3_apply]
  have e : idx_main_v21 (ix2 b z) = ix1 b :=
    funext fun a => Fin.ext (by match a with | ⟨0, _⟩ => rfl)
  rw [e, v20_at]
  rfl

/-- The reference's result is the specification's function of the argument arrays and the gathered table. The one
    algebraic step: the reference multiplies `(scale · d) · r`, the specification `scale · (d · r)`; multiplication of
    extended reals is associative. -/
theorem result_eq :
    val_main_v36 (F := Ideal) x emb W1 b1 gamma beta idx = G x (featR emb idx) W1 b1 gamma beta := by
  funext i
  obtain ⟨b, c, rfl⟩ : ∃ (b : Fin 16384) (c : Fin 256), i = ix2 b c := ⟨i 0, i 1, eq_ix2 i⟩
  rw [G_apply, val_main_v36_apply, val_main_v33_apply, val_main_v28_apply, val_main_v27_apply, val_main_v26_apply,
    v25_at, val_main_v32_apply, val_main_v31_apply, val_main_v30_apply, val_main_v29_apply, val_main_cst_4_apply,
    val_main_v35_apply, val_main_v34_apply]
  have e4 : idx_main_v26 (idx_main_v27 (ix2 b c)) = ix1 c :=
    funext fun a => Fin.ext (by match a with | ⟨0, _⟩ => rfl)
  have e5 : idx_main_v34 (idx_main_v35 (ix2 b c)) = ix1 c :=
    funext fun a => Fin.ext (by match a with | ⟨0, _⟩ => rfl)
  have e : idx_main_v32 (ix2 b c) = ix2 b (⟨0, Nat.one_pos⟩ : Fin 1) :=
    funext fun a => Fin.ext (by match a with | ⟨0, _⟩ => rfl | ⟨1, _⟩ => rfl)
  rw [e4, e5, e, v23_at]
  simp only [Ideal.addf_def, Ideal.mulf_def, Ideal.hostUnary_rsqrt_def, Ideal.ofBits_def]
  unfold outRow Cert.OmicsSpec.norm
  rw [mul_assoc]
  rfl

/-- Every weakly fair execution of the reference terminates with its result array at the specification's function of
    the argument arrays (the embedding table entering through the gathered table only) and the arguments unchanged. -/
theorem run_G (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v36)
        = Cert.OmicsSpec.G (m' ((c.tc : Thread nD τ).loc main_arg0))
            (featR (m' ((c.tc : Thread nD τ).loc main_arg1)) (m' ((c.tc : Thread nD τ).loc main_arg6)))
            (m' ((c.tc : Thread nD τ).loc main_arg2)) (m' ((c.tc : Thread nD τ).loc main_arg3))
            (m' ((c.tc : Thread nD τ).loc main_arg4)) (m' ((c.tc : Thread nD τ).loc main_arg5))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)) :=
  (θ_run defs _ _).mono
    (fun _ h c => ⟨(h c).1.trans ((val_main_v36_eq m' c).trans (result_eq _ _ _ _ _ _ _)), (h c).2⟩)
    (Cert.ReferenceIdeal.Value.run (F := Ideal) m' ρ')

end Cert.ReferenceIdeal.RefValue

end
-- ==== Proof.IndexRange.lean ====
/-
  The index range read out of the printed precondition.

  The precondition is a conjunction of one-bit scalars; its last conjunct is the "all" (a reduction by "and" from 1)
  of the one-bit array  (idx ≥ -30000) ∧ (idx < 30000)  over the 4096 signed 32-bit words of the index input.
  If the whole conjunction is 1 then so is its last conjunct, so every element of that array is 1, so both signed
  comparisons hold at every position: each word of the index input, read signed, lies in [-30000, 30000).
-/
import proofs.«407071_j83296595738829_3_alg».proof.Pre_finite_inputs
import Idealize.ShloMosaic.Lib.ReduceAll
import Idealize.ShloMosaic.Lib.StableHlo.Predicate
import Idealize.ShloMosaic.Lib.ValueIdx

namespace Cert.IndexRange

open Idealize.ShloMosaic Idealize.ShloMosaic.ValueIdx

/-- The scalar shape has exactly one index. -/
instance : Subsingleton Cert.Pre_finite_inputs.S_.Idx := ⟨fun a b => funext fun d => d.elim0⟩

/-- The word the lower bound is printed as is -30000 read signed. -/
theorem toInt_lo : (4294937296#32 : BitVec 32).toInt = -30000 := by decide

/-- The word the upper bound is printed as is 30000 read signed. -/
theorem toInt_hi : (30000#32 : BitVec 32).toInt = 30000 := by decide

/-- If the printed precondition holds, every word of the index input, read signed, lies in [-30000, 30000). -/
theorem idx_range {F : FTy → Type} [FloatOps F] [Cert.Pre_finite_inputs.Facts]
    (a0 : FVec F Cert.Pre_finite_inputs.S16384x4096 .f32) (a1 : FVec F Cert.Pre_finite_inputs.S30000x256 .f32)
    (a2 : FVec F Cert.Pre_finite_inputs.S256x256 .f32) (a3 a4 a5 : FVec F Cert.Pre_finite_inputs.S256 .f32)
    (idx : IVec Cert.Pre_finite_inputs.S4096 32)
    (h : Cert.Pre_finite_inputs.fn (F := F) a0 a1 a2 a3 a4 a5 idx = fun _ => 1#1) (k : Fin 4096) :
    (-30000 : Int) ≤ (idx (ix1 k)).toInt ∧ (idx (ix1 k)).toInt < 30000 := by
  -- the scalar result at its one index
  have h0 := congrFun h ix0
  dsimp only [Cert.Pre_finite_inputs.fn, Cert.Pre_finite_inputs.fn_part1, Cert.Pre_finite_inputs.fn_part2] at h0
  -- the last conjunct of the scalar conjunction: the "all" over the index input
  have h34 := (IntOp.andi_eq_one.1 h0).2
  -- every element of the reduced array is 1
  have hk := Host.reduce_andi_all _ _ _ _ _ h34 (ix1 k)
  -- the element is the "and" of the two comparisons
  obtain ⟨hge, hlt⟩ := IntOp.andi_eq_one.1 hk
  -- each comparison read signed; a broadcast constant reads the constant at every position
  have hge' : (4294937296#32 : BitVec 32).toInt ≤ (idx (ix1 k)).toInt := IntOp.cmpi_sge.1 hge
  have hlt' : (idx (ix1 k)).toInt < (30000#32 : BitVec 32).toInt := IntOp.cmpi_slt.1 hlt
  rw [toInt_lo] at hge'
  rw [toInt_hi] at hlt'
  exact ⟨hge', hlt'⟩

end Cert.IndexRange
-- ==== Proof.lean ====
/-
  The certificate of the gene-embedding layer: a Pallas kernel against its jnp reference, over the extended reals.

  Both programs map a cell's expression row x[b, ·] (4096 genes) to 256 features: the gene-weighted sum of the
  gathered embedding rows, a dense layer with bias and a rectifier, and layer normalisation with scale and shift
  (proof/Proof/Spec.lean writes the function once). The kernel gathers the table on the host with a range mask,
  packs bias, scale and shift into one 24-row array, and runs ONE grid of 32 points, each producing 512 rows by
  four chunked matrix products, a second product and the normalisation; the reference is a host program.
  The precondition keeps every float input finite and every gene index in [-30000, 30000), the range in which
  the reference's own indexing is in range (negative indices count from the end in both programs).
-/
import proofs.«407071_j83296595738829_3_alg».proof.Defs
import proofs.«407071_j83296595738829_3_alg».proof.Proof.Gen.Kernel
import proofs.«407071_j83296595738829_3_alg».proof.Proof.Gen.KernelIdeal
import proofs.«407071_j83296595738829_3_alg».proof.Proof.Gen.ReferenceIdeal
import proofs.«407071_j83296595738829_3_alg».proof.Proof.Gen.Pre_finite_inputs
import proofs.«407071_j83296595738829_3_alg».proof.Proof.FrameKernel
import proofs.«407071_j83296595738829_3_alg».proof.Proof.FrameKernelIdeal
import proofs.«407071_j83296595738829_3_alg».proof.Proof.KernelValue
import proofs.«407071_j83296595738829_3_alg».proof.Proof.RefValue
import proofs.«407071_j83296595738829_3_alg».proof.Proof.IndexRange
import Idealize.ShloMosaic.Adequacy
import Idealize.ShloMosaic.Init

noncomputable section

/-
  The five conjuncts.

  The three frames: the two kernel programs by the launch of their one grid over the body's triple; the reference,
  a host program, by its run with the result dropped. Nothing was rewritten by the ideal pass, so the kernel's
  idealization is the program's own text and there is nothing to preserve. The equivalence: under the precondition
  every gene index lies in [-30000, 30000), so the kernel's range mask is all ones and its gathered table is the
  reference's; both programs then end with the result array at ONE function of the arguments — cell by cell the
  gene-weighted sum of embedding rows, a dense layer with bias and rectifier, and layer normalisation — the kernel
  summing the 4096 genes in four chunks and grouping scale · (d · r), the reference summing them at once and
  grouping (scale · d) · r.
-/
namespace Cert.Proof

open Idealize.ShloMosaic Idealize.ShloMosaic.TcCoe Idealize.ShloMosaic.ValueIdx Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  have hr : ∀ c : Dev Cert.KernelIdeal.nD, ∀ k : Fin 4096,
      (-30000 : Int) ≤ ((m ((c : Thread Cert.KernelIdeal.nD Cert.KernelIdeal.τ).loc Cert.KernelIdeal.main_arg6) : IVec Cert.KernelIdeal.S4096 32) (ix1 k)).toInt
        ∧ ((m ((c : Thread Cert.KernelIdeal.nD Cert.KernelIdeal.τ).loc Cert.KernelIdeal.main_arg6) : IVec Cert.KernelIdeal.S4096 32) (ix1 k)).toInt < 30000 :=
    fun c k => Cert.IndexRange.idx_range _ _ _ _ _ _ _ (hpre c) k
  refine ⟨fun c => Cert.KernelIdeal.Val.Gm m c, Cert.KernelIdeal.Val.run m ρ hr, ?_⟩
  refine (θ_run Cert.ReferenceIdeal.defs _ _).mono (fun _ h c => ⟨(h c).1.trans ?_, (h c).2⟩)
    (Cert.ReferenceIdeal.RefValue.run_G m' ρ')
  obtain ⟨e0, e1, e2, e3, e4, e5, e6⟩ := hagree c
  rw [e0, e1, e2, e3, e4, e5, e6]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
